-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S128 .f32) (main_arg7 : FVec F S128x16 .f32) (main_arg8 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x16 .f32 := Host.absf main_arg7
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S50000x128 .f32) (main_arg1 : IVec S2x600000 32) (main_arg2 : IVec S50000 32) (main_arg3 : FVec F S128x128 .f32) (main_arg4 : FVec F S128 .f32) (main_arg5 : FVec F S128x128 .f32) (main_arg6 : FVec F S128 .f32) (main_arg7 : FVec F S128x16 .f32) (main_arg8 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x600000 : Shape := ⟨2, ![1, 600000]⟩
abbrev S600000 : Shape := ⟨1, ![600000]⟩
abbrev S50000x1 : Shape := ⟨2, ![50000, 1]⟩
abbrev S_ : Shape := ⟨0, ![]⟩
abbrev S600000x1 : Shape := ⟨2, ![600000, 1]⟩
abbrev S1x128 : Shape := ⟨2, ![1, 128]⟩
abbrev S1x16 : Shape := ⟨2, ![1, 16]⟩
abbrev S2000x128 : Shape := ⟨2, ![2000, 128]⟩
abbrev S600000x128 : Shape := ⟨2, ![600000, 128]⟩
abbrev S2000x1 : Shape := ⟨2, ![2000, 1]⟩
abbrev S64x128 : Shape := ⟨2, ![64, 128]⟩
abbrev S64x1 : Shape := ⟨2, ![64, 1]⟩
abbrev S2000x64 : Shape := ⟨2, ![2000, 64]⟩
abbrev S64x2000 : Shape := ⟨2, ![64, 2000]⟩
abbrev S64x16 : Shape := ⟨2, ![64, 16]⟩

abbrev nBuf : Space → Nat
  | .hbm => 87
  | .vmem => 31
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x16, .f32⟩
  | .hbm, ⟨8, _⟩ => ⟨S16, .f32⟩
  | .hbm, ⟨9, _⟩ => ⟨S1x600000, .i32⟩
  | .hbm, ⟨10, _⟩ => ⟨S600000, .i32⟩
  | .hbm, ⟨11, _⟩ => ⟨S1x600000, .i32⟩
  | .hbm, ⟨12, _⟩ => ⟨S600000, .i32⟩
  | .hbm, ⟨13, _⟩ => ⟨S50000x1, .i32⟩
  | .hbm, ⟨14, _⟩ => ⟨S_, .f32⟩
  | .hbm, ⟨15, _⟩ => ⟨S600000, .f32⟩
  | .hbm, ⟨16, _⟩ => ⟨S_, .f32⟩
  | .hbm, ⟨17, _⟩ => ⟨S50000, .f32⟩
  | .hbm, ⟨18, _⟩ => ⟨S600000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000, .f32⟩
  | .hbm, ⟨33, _⟩ => ⟨S_, .i32⟩
  | .hbm, ⟨34, _⟩ => ⟨S600000, .i32⟩
  | .hbm, ⟨35, _⟩ => ⟨S600000, .i1⟩
  | .hbm, ⟨36, _⟩ => ⟨S_, .i32⟩
  | .hbm, ⟨37, _⟩ => ⟨S600000, .i32⟩
  | .hbm, ⟨38, _⟩ => ⟨S600000, .i32⟩
  | .hbm, ⟨39, _⟩ => ⟨S600000, .i32⟩
  | .hbm, ⟨40, _⟩ => ⟨S600000x1, .i32⟩
  | .hbm, ⟨41, _⟩ => ⟨S600000, .f32⟩
  | .hbm, ⟨42, _⟩ => ⟨S600000, .f32⟩
  | .hbm, ⟨43, _⟩ => ⟨S50000, .f32⟩
  | .hbm, ⟨44, _⟩ => ⟨S50000x1, .f32⟩
  | .hbm, ⟨45, _⟩ => ⟨S1x128, .f32⟩
  | .hbm, ⟨46, _⟩ => ⟨S1x128, .f32⟩
  | .hbm, ⟨47, _⟩ => ⟨S1x16, .f32⟩
  | .hbm, ⟨48, _⟩ => ⟨S50000x128, .bf16⟩
  | .hbm, ⟨49, _⟩ => ⟨S_, .i32⟩
  | .hbm, ⟨50, _⟩ => ⟨S600000, .i32⟩
  | .hbm, ⟨51, _⟩ => ⟨S600000, .i1⟩
  | .hbm, ⟨52, _⟩ => ⟨S_, .i32⟩
  | .hbm, ⟨53, _⟩ => ⟨S600000, .i32⟩
  | .hbm, ⟨54, _⟩ => ⟨S600000, .i32⟩
  | .hbm, ⟨55, _⟩ => ⟨S600000, .i32⟩
  | .hbm, ⟨56, _⟩ => ⟨S600000x1, .i32⟩
  | .hbm, ⟨57, _⟩ => ⟨S600000x128, .bf16⟩
  | .hbm, ⟨58, _⟩ => ⟨S600000x128, .f32⟩
  | .hbm, ⟨59, _⟩ => ⟨S600000x1, .f32⟩
  | .hbm, ⟨60, _⟩ => ⟨S600000x128, .f32⟩
  | .hbm, ⟨61, _⟩ => ⟨S600000x128, .f32⟩
  | .hbm, ⟨62, _⟩ => ⟨S_, .f32⟩
  | .hbm, ⟨63, _⟩ => ⟨S50000x128, .f32⟩
  | .hbm, ⟨64, _⟩ => ⟨S600000x1, .i32⟩
  | .hbm, ⟨65, _⟩ => ⟨S50000x128, .f32⟩
  | .hbm, ⟨66, _⟩ => ⟨S50000x128, .bf16⟩
  | .hbm, ⟨67, _⟩ => ⟨S_, .i32⟩
  | .hbm, ⟨68, _⟩ => ⟨S600000, .i32⟩
  | .hbm, ⟨69, _⟩ => ⟨S600000, .i1⟩
  | .hbm, ⟨70, _⟩ => ⟨S_, .i32⟩
  | .hbm, ⟨71, _⟩ => ⟨S600000, .i32⟩
  | .hbm, ⟨72, _⟩ => ⟨S600000, .i32⟩
  | .hbm, ⟨73, _⟩ => ⟨S600000, .i32⟩
  | .hbm, ⟨74, _⟩ => ⟨S600000x1, .i32⟩
  | .hbm, ⟨75, _⟩ => ⟨S600000x128, .bf16⟩
  | .hbm, ⟨76, _⟩ => ⟨S600000x128, .f32⟩
  | .hbm, ⟨77, _⟩ => ⟨S600000x1, .f32⟩
  | .hbm, ⟨78, _⟩ => ⟨S600000x128, .f32⟩
  | .hbm, ⟨79, _⟩ => ⟨S600000x128, .f32⟩
  | .hbm, ⟨80, _⟩ => ⟨S_, .f32⟩
  | .hbm, ⟨81, _⟩ => ⟨S50000x128, .f32⟩
  | .hbm, ⟨82, _⟩ => ⟨S600000x1, .i32⟩
  | .hbm, ⟨83, _⟩ => ⟨S50000x128, .f32⟩
  | .hbm, ⟨84, _⟩ => ⟨S64x128, .f32⟩
  | .hbm, ⟨85, _⟩ => ⟨S64x1, .f32⟩
  | .hbm, ⟨86, _⟩ => ⟨S64x16, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .bf16⟩
  | .local _ .vmem, ⟨4, _⟩ => ⟨S2000x128, .bf16⟩
  | .local _ .vmem, ⟨5, _⟩ => ⟨S2000x128, .bf16⟩
  | .local _ .vmem, ⟨6, _⟩ => ⟨S2000x128, .bf16⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S128x128, .f32⟩
  | .local _ .vmem, ⟨13, _⟩ => ⟨S2000x128, .bf16⟩
  | .local _ .vmem, ⟨14, _⟩ => ⟨S2000x128, .bf16⟩
  | .local _ .vmem, ⟨15, _⟩ => ⟨S2000x128, .bf16⟩
  | .local _ .vmem, ⟨16, _⟩ => ⟨S2000x128, .bf16⟩
  | .local _ .vmem, ⟨17, _⟩ => ⟨S2000x128, .f32⟩
  | .local _ .vmem, ⟨18, _⟩ => ⟨S2000x128, .f32⟩
  | .local _ .vmem, ⟨19, _⟩ => ⟨S2000x1, .f32⟩
  | .local _ .vmem, ⟨20, _⟩ => ⟨S2000x1, .f32⟩
  | .local _ .vmem, ⟨21, _⟩ => ⟨S1x128, .f32⟩
  | .local _ .vmem, ⟨22, _⟩ => ⟨S2000x1, .i32⟩
  | .local _ .vmem, ⟨23, _⟩ => ⟨S2000x1, .i32⟩
  | .local _ .vmem, ⟨24, _⟩ => ⟨S64x128, .f32⟩
  | .local _ .vmem, ⟨25, _⟩ => ⟨S64x1, .f32⟩
  | .local _ .vmem, ⟨26, _⟩ => ⟨S64x128, .f32⟩
  | .local _ .vmem, ⟨27, _⟩ => ⟨S64x1, .f32⟩
  | .local _ .vmem, ⟨28, _⟩ => ⟨S128x16, .f32⟩
  | .local _ .vmem, ⟨29, _⟩ => ⟨S1x16, .f32⟩
  | .local _ .vmem, ⟨30, _⟩ => ⟨S64x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_5 : Ref sig .tc := ⟨.hbm, 49, rfl⟩
abbrev main_v33 : Ref sig .tc := ⟨.hbm, 50, rfl⟩
abbrev main_v34 : Ref sig .tc := ⟨.hbm, 51, rfl⟩
abbrev main_c_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_8 : Ref sig .tc := ⟨.hbm, 67, rfl⟩
abbrev main_v48 : Ref sig .tc := ⟨.hbm, 68, rfl⟩
abbrev main_v49 : Ref sig .tc := ⟨.hbm, 69, rfl⟩
abbrev main_c_9 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_10 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62_0 : Ref sig .tc := ⟨.hbm, 84, rfl⟩
abbrev main_v62_1 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg6_0 : Ref sig .tc := ⟨.vmem, 25, rfl⟩
abbrev cc3_stg0_0 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23
abbrev cc2_sem5_0 : DmaSem sig := 24
abbrev cc2_sem6_0 : DmaSem sig := 25
abbrev cc3_sem0_0 : DmaSem sig := 26
abbrev cc3_sem1_0 : DmaSem sig := 27
abbrev cc3_sem2_0 : DmaSem sig := 28
abbrev cc3_sem3_0 : DmaSem sig := 29
abbrev cc3_sem4_0 : DmaSem sig := 30

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x1 .i32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S64x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S64x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S64x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  shapeCasts_S50000_S50000x1 : S50000.ShapeCasts S50000x1
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S128_S1x128 : S128.ShapeCasts S1x128
  shapeCasts_S16_S1x16 : S16.ShapeCasts S1x16
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S2000x128_S2000x128_0_0 : (Rect.unit (s := S2000x128) ![0, 0] S2000x128.size inb_S2000x128_S2000x128_0_0).PackedRows (EltTy.packing .bf16)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S2000x1_S2000x128 : S2000x1.Broadcasts S2000x128
  broadcasts_S1x128_S2000x128 : S1x128.Broadcasts S2000x128
  inb_S64x128_S64x128_0_0 : ∀ a, (![0, 0] : Fin 2 → Nat) a + S64x128.size a ≤ S64x128.size a
  h_S64x128 : 0 < S64x128.numel
  inb_S64x1_S64x1_0_0 : ∀ a, (![0, 0] : Fin 2 → Nat) a + S64x1.size a ≤ S64x1.size a
  h_S64x1 : 0 < S64x1.numel
  iota_S2000x64_d1_w32 : S2000x64.Iotas .tc 32 [1]
  broadcasts_S2000x1_S2000x64 : S2000x1.Broadcasts S2000x64
  natLt_1_32 : 1 < 32
  shapeCasts_S64x128_S64x128 : S64x128.ShapeCasts S64x128
  transposes_S2000x64_p1_0_S64x2000 : S2000x64.Transposes [1, 0] S64x2000
  shapeCasts_S64x1_S64x1 : S64x1.ShapeCasts S64x1
  broadcasts_S64x1_S64x128 : S64x1.Broadcasts S64x128
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S64x16 : S1x16.Broadcasts S64x16
  inb_S64x16_S64x16_0_0 : ∀ a, (![0, 0] : Fin 2 → Nat) a + S64x16.size a ≤ S64x16.size a
  h_S64x16 : 0 < S64x16.numel
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  dot_S2000x128_S128x128_S2000x128_1_0_0_1_n_n_wf : DotDims.WF S2000x128 S128x128 S2000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S64x2000_S2000x128_S64x128_1_0_0_1_n_n_wf : DotDims.WF S64x2000 S2000x128 S64x128 [1] [0] [0] [1] [] []
  dot_S64x2000_S2000x1_S64x1_1_0_0_1_n_n_wf : DotDims.WF S64x2000 S2000x1 S64x1 [1] [0] [0] [1] [] []
  dot_S64x128_S128x16_S64x16_1_0_0_1_n_n_wf : DotDims.WF S64x128 S128x16 S64x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .bf16 = 32 ∨ (Rect.block (s := S50000x128) S2000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .bf16 = 32 ∨ (Rect.block (s := S50000x128) S2000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .bf16 = 32 ∨ (Rect.block (s := S50000x128) S2000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .bf16 = 32 ∨ (Rect.block (s := S50000x128) S2000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x1.size a ≤ S50000x1.size a
  hwx2_4 : ∀ i : grid2.Coords, EltTy.bits .i32 = 32 ∨ (Rect.block (s := S50000x1) S2000x1.size (cc2_transform_4 i) (hinb2_4 i)).WholeWords (EltTy.packing .i32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x128.size a ≤ S64x128.size a
  hwx2_5 : ∀ i : grid2.Coords, EltTy.bits .f32 = 32 ∨ (Rect.block (s := S64x128) S64x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x1.size a ≤ S64x1.size a
  hwx2_6 : ∀ i : grid2.Coords, EltTy.bits .f32 = 32 ∨ (Rect.block (s := S64x1) S64x1.size (cc2_transform_6 i) (hinb2_6 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x128.size a ≤ S64x128.size a
  hwx3_0 : ∀ i : grid3.Coords, EltTy.bits .f32 = 32 ∨ (Rect.block (s := S64x128) S64x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x1.size a ≤ S64x1.size a
  hwx3_1 : ∀ i : grid3.Coords, EltTy.bits .f32 = 32 ∨ (Rect.block (s := S64x1) S64x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x16.size a ≤ S128x16.size a
  hwx3_2 : ∀ i : grid3.Coords, EltTy.bits .f32 = 32 ∨ (Rect.block (s := S128x16) S128x16.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x16.size a ≤ S1x16.size a
  hwx3_3 : ∀ i : grid3.Coords, EltTy.bits .f32 = 32 ∨ (Rect.block (s := S1x16) S1x16.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x16.size a ≤ S64x16.size a
  hwx3_4 : ∀ i : grid3.Coords, EltTy.bits .f32 = 32 ∨ (Rect.block (s := S64x16) S64x16.size (cc3_transform_4 i) (hinb3_4 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S64x2000_S2000x128_S64x128_1_0_0_1_n_n : DotDims S64x2000 S2000x128 S64x128 where
  lhsContracting := [1]
  rhsContracting := [0]
  lhsNonContracting := [0]
  rhsNonContracting := [1]
  lhsBatch := []
  rhsBatch := []
  wf := dot_S64x2000_S2000x128_S64x128_1_0_0_1_n_n_wf
def dot_S64x2000_S2000x1_S64x1_1_0_0_1_n_n : DotDims S64x2000 S2000x1 S64x1 where
  lhsContracting := [1]
  rhsContracting := [0]
  lhsNonContracting := [0]
  rhsNonContracting := [1]
  lhsBatch := []
  rhsBatch := []
  wf := dot_S64x2000_S2000x1_S64x1_1_0_0_1_n_n_wf
def dot_S64x128_S128x16_S64x16_1_0_0_1_n_n : DotDims S64x128 S128x16 S64x16 where
  lhsContracting := [1]
  rhsContracting := [0]
  lhsNonContracting := [0]
  rhsNonContracting := [1]
  lhsBatch := []
  rhsBatch := []
  wf := dot_S64x128_S128x16_S64x16_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v32) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v47) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v30) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v4) S2000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v62_0) S64x128.size cc2_transform_5 reads2_5 true true 1 stage2_5 sem2_5
    hrank2 hreads2_5 hinb2_5 nbuf2_5 (Memref.isWhole_whole _) hwx2_5 hstage2_5

abbrev win2_6 : Pipeline.Window sig grid2 :=
  Pipeline.Window.ofSpec (Memref.whole main_v62_1) S64x1.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v62_0) S64x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v62_1) S64x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S128x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v31) S1x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S64x16.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S64x128 : Shape := ⟨2, ![64, 128]⟩
abbrev S64 : Shape := ⟨1, ![64]⟩
abbrev S64x1 : Shape := ⟨2, ![64, 1]⟩
abbrev S64x16 : Shape := ⟨2, ![64, 16]⟩
abbrev S1x16 : Shape := ⟨2, ![1, 16]⟩

abbrev nBuf : Space → Nat
  | .hbm => 155
  | .vmem => 0
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x16, .f32⟩
  | 8 => ⟨S16, .f32⟩
  | 9 => ⟨S1x600000, .i32⟩
  | 10 => ⟨S600000, .i32⟩
  | 11 => ⟨S1x600000, .i32⟩
  | 12 => ⟨S600000, .i32⟩
  | 13 => ⟨S50000x128, .f32⟩
  | 14 => ⟨S_, .f32⟩
  | 15 => ⟨S600000, .f32⟩
  | 16 => ⟨S_, .f32⟩
  | 17 => ⟨S50000, .f32⟩
  | 18 => ⟨S600000x1, .i32⟩
  | 19 => ⟨S50000, .f32⟩
  | 20 => ⟨S_, .f32⟩
  | 21 => ⟨S50000, .f32⟩
  | 22 => ⟨S50000, .f32⟩
  | 23 => ⟨S50000, .f32⟩
  | 24 => ⟨S_, .i32⟩
  | 25 => ⟨S600000, .i32⟩
  | 26 => ⟨S600000, .i1⟩
  | 27 => ⟨S_, .i32⟩
  | 28 => ⟨S600000, .i32⟩
  | 29 => ⟨S600000, .i32⟩
  | 30 => ⟨S600000, .i32⟩
  | 31 => ⟨S600000x1, .i32⟩
  | 32 => ⟨S600000, .f32⟩
  | 33 => ⟨S_, .i32⟩
  | 34 => ⟨S600000, .i32⟩
  | 35 => ⟨S600000, .i1⟩
  | 36 => ⟨S_, .i32⟩
  | 37 => ⟨S600000, .i32⟩
  | 38 => ⟨S600000, .i32⟩
  | 39 => ⟨S600000, .i32⟩
  | 40 => ⟨S600000x1, .i32⟩
  | 41 => ⟨S600000, .f32⟩
  | 42 => ⟨S600000, .f32⟩
  | 43 => ⟨S_, .i32⟩
  | 44 => ⟨S600000, .i32⟩
  | 45 => ⟨S600000, .i1⟩
  | 46 => ⟨S_, .i32⟩
  | 47 => ⟨S600000, .i32⟩
  | 48 => ⟨S600000, .i32⟩
  | 49 => ⟨S600000, .i32⟩
  | 50 => ⟨S600000x1, .i32⟩
  | 51 => ⟨S600000x128, .f32⟩
  | 52 => ⟨S600000x1, .f32⟩
  | 53 => ⟨S600000x128, .f32⟩
  | 54 => ⟨S600000x128, .f32⟩
  | 55 => ⟨S_, .f32⟩
  | 56 => ⟨S50000x128, .f32⟩
  | 57 => ⟨S600000x1, .i32⟩
  | 58 => ⟨S50000x128, .f32⟩
  | 59 => ⟨S50000, .f32⟩
  | 60 => ⟨S50000x1, .f32⟩
  | 61 => ⟨S50000x128, .f32⟩
  | 62 => ⟨S50000x128, .f32⟩
  | 63 => ⟨S50000x128, .f32⟩
  | 64 => ⟨S1x128, .f32⟩
  | 65 => ⟨S50000x128, .f32⟩
  | 66 => ⟨S50000x128, .f32⟩
  | 67 => ⟨S_, .f32⟩
  | 68 => ⟨S50000x128, .f32⟩
  | 69 => ⟨S50000x128, .i1⟩
  | 70 => ⟨S_, .f32⟩
  | 71 => ⟨S50000x128, .f32⟩
  | 72 => ⟨S50000x128, .f32⟩
  | 73 => ⟨S50000x128, .f32⟩
  | 74 => ⟨S50000x128, .f32⟩
  | 75 => ⟨S_, .f32⟩
  | 76 => ⟨S600000, .f32⟩
  | 77 => ⟨S_, .f32⟩
  | 78 => ⟨S50000, .f32⟩
  | 79 => ⟨S600000x1, .i32⟩
  | 80 => ⟨S50000, .f32⟩
  | 81 => ⟨S_, .f32⟩
  | 82 => ⟨S50000, .f32⟩
  | 83 => ⟨S50000, .f32⟩
  | 84 => ⟨S50000, .f32⟩
  | 85 => ⟨S_, .i32⟩
  | 86 => ⟨S600000, .i32⟩
  | 87 => ⟨S600000, .i1⟩
  | 88 => ⟨S_, .i32⟩
  | 89 => ⟨S600000, .i32⟩
  | 90 => ⟨S600000, .i32⟩
  | 91 => ⟨S600000, .i32⟩
  | 92 => ⟨S600000x1, .i32⟩
  | 93 => ⟨S600000, .f32⟩
  | 94 => ⟨S_, .i32⟩
  | 95 => ⟨S600000, .i32⟩
  | 96 => ⟨S600000, .i1⟩
  | 97 => ⟨S_, .i32⟩
  | 98 => ⟨S600000, .i32⟩
  | 99 => ⟨S600000, .i32⟩
  | 100 => ⟨S600000, .i32⟩
  | 101 => ⟨S600000x1, .i32⟩
  | 102 => ⟨S600000, .f32⟩
  | 103 => ⟨S600000, .f32⟩
  | 104 => ⟨S_, .i32⟩
  | 105 => ⟨S600000, .i32⟩
  | 106 => ⟨S600000, .i1⟩
  | 107 => ⟨S_, .i32⟩
  | 108 => ⟨S600000, .i32⟩
  | 109 => ⟨S600000, .i32⟩
  | 110 => ⟨S600000, .i32⟩
  | 111 => ⟨S600000x1, .i32⟩
  | 112 => ⟨S600000x128, .f32⟩
  | 113 => ⟨S600000x1, .f32⟩
  | 114 => ⟨S600000x128, .f32⟩
  | 115 => ⟨S600000x128, .f32⟩
  | 116 => ⟨S_, .f32⟩
  | 117 => ⟨S50000x128, .f32⟩
  | 118 => ⟨S600000x1, .i32⟩
  | 119 => ⟨S50000x128, .f32⟩
  | 120 => ⟨S50000, .f32⟩
  | 121 => ⟨S50000x1, .f32⟩
  | 122 => ⟨S50000x128, .f32⟩
  | 123 => ⟨S50000x128, .f32⟩
  | 124 => ⟨S50000x128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S_, .f32⟩
  | 1 => ⟨S50000x128, .f32⟩
  | 2 => ⟨S50000x128, .i1⟩
  | 3 => ⟨S_, .f32⟩
  | 4 => ⟨S50000x128, .f32⟩
  | 5 => ⟨S50000x128, .f32⟩
  | 6 => ⟨S50000x128, .f32⟩
  | 7 => ⟨S_, .f32⟩
  | 8 => ⟨S64x128, .f32⟩
  | 9 => ⟨S50000x1, .i32⟩
  | 10 => ⟨S64x128, .f32⟩
  | 11 => ⟨S_, .f32⟩
  | 12 => ⟨S50000, .f32⟩
  | 13 => ⟨S_, .f32⟩
  | 14 => ⟨S64, .f32⟩
  | 15 => ⟨S50000x1, .i32⟩
  | 16 => ⟨S64, .f32⟩
  | 17 => ⟨S_, .f32⟩
  | 18 => ⟨S64, .f32⟩
  | 19 => ⟨S64, .f32⟩
  | 20 => ⟨S64x1, .f32⟩
  | 21 => ⟨S64x128, .f32⟩
  | 22 => ⟨S64x128, .f32⟩
  | 23 => ⟨S64x16, .f32⟩
  | 24 => ⟨S1x16, .f32⟩
  | 25 => ⟨S64x16, .f32⟩
  | 26 => ⟨S64x16, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩
abbrev main_cst_9 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_13 : Ref sig .tc := ⟨.hbm, 85, rfl⟩
abbrev main_v61 : Ref sig .tc := ⟨.hbm, 86, rfl⟩
abbrev main_v62 : Ref sig .tc := ⟨.hbm, 87, rfl⟩
abbrev main_c_14 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_c_15 : Ref sig .tc := ⟨.hbm, 94, rfl⟩
abbrev main_v68 : Ref sig .tc := ⟨.hbm, 95, rfl⟩
abbrev main_v69 : Ref sig .tc := ⟨.hbm, 96, rfl⟩
abbrev main_c_16 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_c_17 : Ref sig .tc := ⟨.hbm, 104, rfl⟩
abbrev main_v76 : Ref sig .tc := ⟨.hbm, 105, rfl⟩
abbrev main_v77 : Ref sig .tc := ⟨.hbm, 106, rfl⟩
abbrev main_c_18 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_19 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_20 : Ref sig .tc := ⟨.hbm, 128, rfl⟩
abbrev main_v97 : Ref sig .tc := ⟨.hbm, 129, rfl⟩
abbrev main_v98 : Ref sig .tc := ⟨.hbm, 130, rfl⟩
abbrev main_cst_21 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_cst_22 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_cst_23 : Ref sig .tc := ⟨.hbm, 139, rfl⟩
abbrev main_v105 : Ref sig .tc := ⟨.hbm, 140, rfl⟩
abbrev main_cst_24 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_cst_25 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  dot_S50000x128_S128x128_S50000x128_1_0_0_1_n_n_wf : DotDims.WF S50000x128 S128x128 S50000x128 [1] [0] [0] [1] [] []
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x16_S64x16_1_0_0_1_n_n_wf : DotDims.WF S64x128 S128x16 S64x16 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x16_S64x16_1_0_0_1_n_n : DotDims S64x128 S128x16 S64x16 where
  lhsContracting := [1]
  rhsContracting := [0]
  lhsNonContracting := [0]
  rhsNonContracting := [1]
  lhsBatch := []
  rhsBatch := []
  wf := dot_S64x128_S128x16_S64x16_1_0_0_1_n_n_wf

class Facts : Prop extends Facts₀ where

variable [Facts]
-- ==== Proof.Args.lean ====
import proofs.«405578_j67937792688660_2_alg».proof.Proof.Gen.KernelIdeal.Frame
import Idealize.ShloMosaic.PureOps.Ideal
import Idealize.ShloMosaic.Lib.ValueIdx

set_option maxRecDepth 16384

noncomputable section

namespace Cert.KernelIdeal.KV

open Idealize.ShloMosaic Idealize.ShloMosaic.TcCoe Idealize.SL.Sem
open Idealize.ShloMosaic.Pipeline (Dat)
open Idealize.ShloMosaic.ValueIdx (ix1 ix2)
open Cert.KernelIdeal Cert.KernelIdeal.Gen
variable (m : (ℓ : Loc nD τ sig) → Buf (Elt Ideal) ℓ) (ρ : Dev nD → PrngReg)

/-- The argument arrays at launch. -/
abbrev A0 (c : Dev nD) : S50000x128.Idx → EReal := m ((c.tc : Thread nD τ).loc main_arg0)
abbrev A1 (c : Dev nD) : S2x600000.Idx → BitVec 32 := m ((c.tc : Thread nD τ).loc main_arg1)
abbrev A2 (c : Dev nD) : S50000.Idx → BitVec 32 := m ((c.tc : Thread nD τ).loc main_arg2)
abbrev A3 (c : Dev nD) : S128x128.Idx → EReal := m ((c.tc : Thread nD τ).loc main_arg3)
abbrev A4 (c : Dev nD) : S128.Idx → EReal := m ((c.tc : Thread nD τ).loc main_arg4)
abbrev A5 (c : Dev nD) : S128x128.Idx → EReal := m ((c.tc : Thread nD τ).loc main_arg5)
abbrev A6 (c : Dev nD) : S128.Idx → EReal := m ((c.tc : Thread nD τ).loc main_arg6)
abbrev A7 (c : Dev nD) : S128x16.Idx → EReal := m ((c.tc : Thread nD τ).loc main_arg7)
abbrev A8 (c : Dev nD) : S16.Idx → EReal := m ((c.tc : Thread nD τ).loc main_arg8)

end Cert.KernelIdeal.KV

end
-- ==== Proof.Spec.lean ====
/- The scalar functions both programs apply, at the ideal instance (floats are extended reals):
   the leaky rectifier with slope f32(0.1), the combine step of a graph-convolution layer
   (aggregated neighbours + self term scaled by the squared inverse root degree + bias, rectified),
   the indicator of a graph id, and the mean's quotient by max(count, 1). -/
import Idealize.ShloMosaic.PureOps.Ideal
import Idealize.ShloMosaic.Lib.ValueIdx

noncomputable section

namespace Cert.Spec

open Idealize.ShloMosaic

/-- `v` if `v ≥ 0`, else `f32(0.1) · v`. -/
def leaky (v : Ideal .f32) : Ideal .f32 :=
  Scalar.select (FloatOps.cmpf (F := Ideal) .oge v (FloatOps.ofBits .f32 0x00000000#32)) v
    (FloatOps.mulf (FloatOps.ofBits .f32 0x3DCCCCCD#32) v)

/-- One node feature after a layer's combine step: `leaky (agg + h · d2 + b)`. -/
def comb (agg h d2 b : Ideal .f32) : Ideal .f32 :=
  leaky (FloatOps.addf (FloatOps.addf agg (FloatOps.mulf h d2)) b)

/-- The indicator that a node's graph id (a 32-bit word) is `g`. -/
def onehot (b : BitVec 32) (g : Fin 64) : EReal := if b = BitVec.ofNat 32 g.val then 1 else 0

/-- A pooled sum divided by `max(count, 1)`. -/
def meanDiv (p cnt : Ideal .f32) : Ideal .f32 :=
  FloatOps.hostDivf (F := Ideal) p (FloatOps.maximumf cnt (FloatOps.ofBits .f32 0x3F800000#32))

end Cert.Spec

end
-- ==== Proof.Region0.lean ====
import proofs.«405578_j67937792688660_2_alg».proof.Proof.Gen.KernelIdeal.Frame
import proofs.«405578_j67937792688660_2_alg».proof.Proof.Gen.ReferenceIdeal.Read
import proofs.«405578_j67937792688660_2_alg».proof.Proof.Spec

set_option maxRecDepth 16384

noncomputable section

namespace Cert.KernelIdeal.KV

open Idealize.ShloMosaic Idealize.ShloMosaic.TcCoe Idealize.SL.Sem
open Idealize.ShloMosaic.Pipeline (Dat)
open Idealize.ShloMosaic.ValueIdx (ix1 ix2)
open Cert.KernelIdeal Cert.KernelIdeal.Gen
variable (V : (c : Dev nD) → (b : Ref sig .tc) → Buf (Elt Ideal) ((c : Thread nD τ).loc b))

/-- The left operand's index of the product at result index `i` and contraction index `q`: its row is the result's. -/
theorem dense_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- Its column is the contraction index. -/
theorem dense_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's row is the contraction index. -/
theorem dense_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- Its column is the result's. -/
theorem dense_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The body's payload at an index: the block product, row `r` of the left block against column `q` of the right one. -/
theorem dense_pay_apply (x : Vec Ideal S2000x128 .f32) (w : Vec Ideal S128x128 .f32) (r : Fin 2000) (q : Fin 128) :
    k0_pay1 (F := Ideal) x w (ix2 r q) = ∑ k : Fin 128, x (ix2 r k) * w (ix2 k q) := by
  unfold k0_pay1
  show FloatOps.matmul dot_S2000x128_S128x128_S2000x128_1_0_0_1_n_n none (truncf (F := Ideal) .bf16 x bitsLt_bf16_f32) (truncf (F := Ideal) .bf16 w bitsLt_bf16_f32) (constant (F := Ideal) S2000x128 .f32 0x00000000#32) (ix2 r q) = _
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 r q) ((ValueIdx.contrEquiv1 dot_S2000x128_S128x128_S2000x128_1_0_0_1_n_n 128 rfl rfl).symm k) = ix2 r k := funext fun a => Fin.ext (by
    match a with
    | ⟨0, _⟩ => exact dense_lhs_0 _ _
    | ⟨1, _⟩ => exact (dense_lhs_1 _ _).trans hk)
  have er : dot_S2000x128_S128x128_S2000x128_1_0_0_1_n_n.rhsIdx (ix2 r q) ((ValueIdx.contrEquiv1 dot_S2000x128_S128x128_S2000x128_1_0_0_1_n_n 128 rfl rfl).symm k) = ix2 k q := funext fun a => Fin.ext (by
    match a with
    | ⟨0, _⟩ => exact (dense_rhs_0 _ _).trans hk
    | ⟨1, _⟩ => exact dense_rhs_1 _ _)
  rw [ValueIdx.truncf_apply, ValueIdx.truncf_apply, el, er]

/-- The zero offsets, however spelt. -/
theorem dense_hz : (![0, 0] : Fin 2 → Nat) = fun _ => 0 := funext fun a => by fin_cases a <;> rfl

/-- The printed index maps over the grid: the left operand's row block is the result's, which is the point's number;
    every other block index is zero. -/
theorem dense_idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- One element of the block product against one element of the whole product: when row `r` of the left block is
    the left array's row of `i` and column `q` of the right block is the right array's column of `i`, the block
    product at (r, q) is the whole product at `i`: the same sum over the contracted axis. -/
theorem dense_prod_at (x : Vec Ideal S2000x128 .f32) (w : Vec Ideal S128x128 .f32)
    (A : (⟨S50000x128, .f32⟩ : BufTy).Contents (Elt Ideal)) (B : (⟨S128x128, .f32⟩ : BufTy).Contents (Elt Ideal))
    (r : Fin 2000) (q : Fin 128) (i : S50000x128.Idx)
    (hx : ∀ k : Fin 128, x (ix2 r k) = A (Cert.ReferenceIdeal.Read.lidx_main_v4 i k))
    (hw : ∀ k : Fin 128, w (ix2 k q) = B (Cert.ReferenceIdeal.Read.ridx_main_v4 i k)) :
    k0_pay1 (F := Ideal) x w (ix2 r q) = Cert.ReferenceIdeal.Read.val_main_v4 (F := Ideal) A B i := by
  rw [dense_pay_apply, Cert.ReferenceIdeal.Read.val_main_v4_apply]
  exact Finset.sum_congr rfl fun k _ => by rw [hx k, hw k]

/-- What point `t` writes back is block `t` of the product of the two operand arrays. -/
theorem dense_flushed_eq (c : Dev nD) (t : Fin cfg0.N) :
    (dat0 (F := Ideal) V c).flushed 2 t = ((cfg0.win 2).blk t).view.read (Elt Ideal) (Cert.ReferenceIdeal.Read.val_main_v4 (F := Ideal) (V c main_arg0) (V c main_arg3)) := by
  show (cfg0.win 2).cut (grid0.coords t) ((dat0 (F := Ideal) V c).after 2 t) = _
  rw [after0_2]
  unfold out0_2
  rw [View.canon_unit_zero dense_hz]
  simp only [View.ld_unit_zero (S := S2000x128) dense_hz, View.ld_unit_zero (S := S128x128) dense_hz]
  obtain ⟨e0, e1, e2, e3, e4, e5⟩ := dense_idx_facts t
  funext j
  have hj0 : (j 0).val < 2000 := (j 0).isLt
  have hj1 : (j 1).val < 128 := (j 1).isLt
  have hx : (win0 2).xinj (grid0.coords t) j = ix2 (⟨(j 0).val, hj0⟩ : Fin 2000) (⟨(j 1).val, hj1⟩ : Fin 128) :=
    funext fun a => by match a with | ⟨0, _⟩ => rfl | ⟨1, _⟩ => rfl
  show k0_pay1 (F := Ideal) (iblk0 V c 0 t) (iblk0 V c 1 t) ((win0 2).xinj (grid0.coords t) j)
    = Cert.ReferenceIdeal.Read.val_main_v4 (F := Ideal) (V c main_arg0) (V c main_arg3) (((cfg0.win 2).blk t).view.emb j)
  refine (congrArg (k0_pay1 (F := Ideal) (iblk0 V c 0 t) (iblk0 V c 1 t)) hx).trans
    (dense_prod_at (iblk0 V c 0 t) (iblk0 V c 1 t) (V c main_arg0) (V c main_arg3) ⟨(j 0).val, hj0⟩ ⟨(j 1).val, hj1⟩
      (((cfg0.win 2).blk t).view.emb j) (fun k => ?_) (fun k => ?_))
  · show V c main_arg0 (((cfg0.win 0).blk t).view.emb (ix2 (⟨(j 0).val, hj0⟩ : Fin 2000) k)) = _
    refine congrArg (V c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  · show V c main_arg3 (((cfg0.win 1).blk t).view.emb (ix2 k (⟨(j 1).val, hj1⟩ : Fin 128))) = _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the result array is in point `t`'s block iff each coordinate is in the block's range on its axis. -/
theorem dense_mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v32).slice (win0_2.rect t)).set ↔ _
  rw [View.set_slice_whole, Rect.mem_set_unit]
  exact Iff.rfl

/-- The row blocks cover the result array: row `r` is in block `r / 2000`, which point `r / 2000` writes back. -/
theorem dense_cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, Nat.lt_of_lt_of_eq (by omega : (i 0).val / 2000 < 25) N_0.symm⟩, rfl⟩
  obtain ⟨e0, e1, e2, e3, e4, e5⟩ := dense_idx_facts t
  refine ⟨t, flush0_2 t, ?_⟩
  rw [dense_mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- Region 0 (the dense product): the result array after the region is the product of the two operand arrays
    as the region found them, the same sum over the contracted axis the reference's `dot_general` is. -/
theorem region0 (c : Dev nD) :
    (dat0 (F := Ideal) V c).arrAt 2 cfg0.N = Cert.ReferenceIdeal.Read.val_main_v4 (F := Ideal) (V c main_arg0) (V c main_arg3) :=
  (dat0 (F := Ideal) V c).arrAt_eq_of_cover 2 _ (fun t _ => dense_flushed_eq V c t) dense_cover

end Cert.KernelIdeal.KV

end
-- ==== Proof.Region1.lean ====
import proofs.«405578_j67937792688660_2_alg».proof.Proof.Gen.KernelIdeal.Frame
import proofs.«405578_j67937792688660_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KV

open Idealize.ShloMosaic Idealize.ShloMosaic.TcCoe Idealize.SL.Sem
open Idealize.ShloMosaic.Pipeline (Dat)
open Idealize.ShloMosaic.ValueIdx (ix1 ix2)
open Cert.KernelIdeal Cert.KernelIdeal.Gen
variable (V : (c : Dev nD) → (b : Ref sig .tc) → Buf (Elt Ideal) ((c : Thread nD τ).loc b))

/-- A column broadcast over the lanes: a `[a, 1]` array broadcast to `[a, b]` reads, at `(p, c)`, the operand's row `p`. -/
private theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

private theorem lhs_k1_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
private theorem lhs_k1_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
private theorem rhs_k1_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
private theorem rhs_k1_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block product into the zero accumulator, at an entry: the sum over the contraction coordinate. -/
private theorem matmul_k1_apply (x : FVec Ideal S2000x128 .bf16) (w : FVec Ideal S128x128 .bf16) (r : Fin 2000) (q : Fin 128) :
    matmul dot_S2000x128_S128x128_S2000x128_1_0_0_1_n_n none x w (constant (F := Ideal) S2000x128 .f32 0x00000000#32) (ix2 r q)
      = ∑ k : Fin 128, x (ix2 r k) * w (ix2 k q) := by
  refine (Ideal.matmul_constant_zero_apply dot_S2000x128_S128x128_S2000x128_1_0_0_1_n_n none x w (ix2 r q)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 r q) ((ValueIdx.contrEquiv1 dot_S2000x128_S128x128_S2000x128_1_0_0_1_n_n 128 rfl rfl).symm k) = ix2 r k := funext fun a => Fin.ext (by
    match a with
    | ⟨0, _⟩ => exact lhs_k1_0 _ _
    | ⟨1, _⟩ => exact (lhs_k1_1 _ _).trans hk)
  have er : dot_S2000x128_S128x128_S2000x128_1_0_0_1_n_n.rhsIdx (ix2 r q) ((ValueIdx.contrEquiv1 dot_S2000x128_S128x128_S2000x128_1_0_0_1_n_n 128 rfl rfl).symm k) = ix2 k q := funext fun a => Fin.ext (by
    match a with
    | ⟨0, _⟩ => exact (rhs_k1_0 _ _).trans hk
    | ⟨1, _⟩ => exact rhs_k1_1 _ _)
  rw [el, er]

/-- The body's payload at an entry: the rectified combination of row `r`, times column `q` of the weights. -/
private theorem pay1_apply (h : Vec Ideal S2000x128 .bf16) (agg : Vec Ideal S2000x128 .f32) (d2 : Vec Ideal S2000x1 .f32)
    (b : Vec Ideal S1x128 .f32) (w : Vec Ideal S128x128 .f32) (r : Fin 2000) (q : Fin 128) :
    k1_pay1 (F := Ideal) h agg d2 b w (ix2 r q)
      = ∑ k : Fin 128, Cert.Spec.comb (agg (ix2 r k)) (h (ix2 r k)) (d2 (ix2 r (0 : Fin 1))) (b (ix2 (0 : Fin 1) k)) * w (ix2 k q) := by
  unfold k1_pay1
  simp only [shapeCast_self]
  rw [ValueIdx.truncf_apply, matmul_k1_apply]
  refine Finset.sum_congr rfl fun k _ => ?_
  unfold Cert.Spec.comb Cert.Spec.leaky
  simp only [ValueIdx.truncf_apply, ValueIdx.select_apply, ValueIdx.cmpf_apply, ValueIdx.addf_apply, ValueIdx.mulf_apply,
    ValueIdx.extf_apply, ValueIdx.broadcast_apply, broadcastTo_a1_ab_apply, ValueIdx.broadcastTo_1b_ab_apply,
    Ideal.addf_def, Ideal.mulf_def]

private theorem hz1 : (![0, 0] : Fin 2 → Nat) = fun _ => 0 := funext fun a => by
  match a with
  | ⟨0, _⟩ => rfl
  | ⟨1, _⟩ => rfl

/-- Entry (p, q) of the result: row `p` combined and rectified, times column `q` of the weights. -/
private def entry1 (c : Dev nD) (p : Fin 50000) (q : Fin 128) : EReal :=
  ∑ k : Fin 128, Cert.Spec.comb ((V c main_v46 : S50000x128.Idx → EReal) (ix2 p k)) ((V c main_v32 : S50000x128.Idx → EReal) (ix2 p k))
        ((V c main_v28 : S50000x1.Idx → EReal) (ix2 p 0)) ((V c main_v29 : S1x128.Idx → EReal) (ix2 0 k))
      * (V c main_arg5 : S128x128.Idx → EReal) (ix2 k q)

/-- The result array as one function of the arrays the region finds. -/
private def arr1 (c : Dev nD) : S50000x128.Idx → EReal := fun i => entry1 V c (i 0) (i 1)

/-- A payload whose every entry is the block's entry of a function is that block. -/
private theorem pay1_eq_of (h : Vec Ideal S2000x128 .bf16) (agg : Vec Ideal S2000x128 .f32) (d2 : Vec Ideal S2000x1 .f32)
    (b : Vec Ideal S1x128 .f32) (w : Vec Ideal S128x128 .f32) (B : S2000x128.Idx → EReal)
    (hB : ∀ (r : Fin 2000) (q : Fin 128),
      ∑ k : Fin 128, Cert.Spec.comb (agg (ix2 r k)) (h (ix2 r k)) (d2 (ix2 r (0 : Fin 1))) (b (ix2 (0 : Fin 1) k)) * w (ix2 k q) = B (ix2 r q)) :
    k1_pay1 (F := Ideal) h agg d2 b w = B := by
  funext j
  obtain ⟨r, q, rfl⟩ : ∃ (r : Fin 2000) (q : Fin 128), j = ix2 r q := ⟨j 0, j 1, ValueIdx.eq_ix2 j⟩
  rw [pay1_apply]
  exact hB r q

/-- The printed index maps over the grid: the row blocks move with the point, the bias and the weights stay. -/
private theorem idx_facts1 : ∀ t : Fin cfg1.N, win1_5.index t (0 : Fin 2) = t.val ∧ win1_5.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- What point `t` writes back is block `t` of the result array. -/
private theorem flushed1_5_eq (c : Dev nD) (t : Fin cfg1.N) :
    (dat1 (F := Ideal) V c).flushed 5 t = ((cfg1.win 5).blk t).view.read (Elt Ideal) (arr1 V c) := by
  show (cfg1.win 5).cut (grid1.coords t) ((dat1 V c).after 5 t) = _
  rw [after1_5]
  unfold out1_5
  rw [View.canon_unit_zero hz1]
  simp only [View.ld_unit_zero (S := S2000x128) hz1, View.ld_unit_zero (S := S2000x1) hz1, View.ld_unit_zero (S := S1x128) hz1, View.ld_unit_zero (S := S128x128) hz1]
  show k1_pay1 (F := Ideal) (iblk1 V c 0 t) (iblk1 V c 1 t) (iblk1 V c 2 t) (iblk1 V c 3 t) (iblk1 V c 4 t) = _
  refine pay1_eq_of _ _ _ _ _ _ (fun r q => ?_)
  obtain ⟨f50, f51, f00, f01, f10, f11, f20, f21, f30, f31, f40, f41⟩ := idx_facts1 t
  have ht : t.val < 25 := lt_of_lt_of_eq t.isLt N_1
  let pt : Fin 50000 := ⟨t.val * 2000 + r.val, by have := r.isLt; omega⟩
  show ∑ k : Fin 128, Cert.Spec.comb ((V c main_v46 : S50000x128.Idx → EReal) (((cfg1.win 1).blk t).view.emb (ix2 r k)))
        ((V c main_v32 : S50000x128.Idx → EReal) (((cfg1.win 0).blk t).view.emb (ix2 r k)))
        ((V c main_v28 : S50000x1.Idx → EReal) (((cfg1.win 2).blk t).view.emb (ix2 r (0 : Fin 1))))
        ((V c main_v29 : S1x128.Idx → EReal) (((cfg1.win 3).blk t).view.emb (ix2 (0 : Fin 1) k)))
      * (V c main_arg5 : S128x128.Idx → EReal) (((cfg1.win 4).blk t).view.emb (ix2 k q))
    = arr1 V c (((cfg1.win 5).blk t).view.emb (ix2 r q))
  have e5 : ((cfg1.win 5).blk t).view.emb (ix2 r q) = (ix2 pt q : S50000x128.Idx) := by
    funext a; apply Fin.ext
    match a with
    | ⟨0, _⟩ => show win1_5.index t (0 : Fin 2) * 2000 + 1 * r.val = t.val * 2000 + r.val; omega
    | ⟨1, _⟩ => show win1_5.index t (1 : Fin 2) * 128 + 1 * q.val = q.val; omega
  have e0 : ∀ k : Fin 128, ((cfg1.win 0).blk t).view.emb (ix2 r k) = (ix2 pt k : S50000x128.Idx) := fun k => by
    funext a; apply Fin.ext
    match a with
    | ⟨0, _⟩ => show win1_0.index t (0 : Fin 2) * 2000 + 1 * r.val = t.val * 2000 + r.val; omega
    | ⟨1, _⟩ => show win1_0.index t (1 : Fin 2) * 128 + 1 * k.val = k.val; omega
  have e1 : ∀ k : Fin 128, ((cfg1.win 1).blk t).view.emb (ix2 r k) = (ix2 pt k : S50000x128.Idx) := fun k => by
    funext a; apply Fin.ext
    match a with
    | ⟨0, _⟩ => show win1_1.index t (0 : Fin 2) * 2000 + 1 * r.val = t.val * 2000 + r.val; omega
    | ⟨1, _⟩ => show win1_1.index t (1 : Fin 2) * 128 + 1 * k.val = k.val; omega
  have e2 : ((cfg1.win 2).blk t).view.emb (ix2 r (0 : Fin 1)) = (ix2 pt (0 : Fin 1) : S50000x1.Idx) := by
    funext a; apply Fin.ext
    match a with
    | ⟨0, _⟩ => show win1_2.index t (0 : Fin 2) * 2000 + 1 * r.val = t.val * 2000 + r.val; omega
    | ⟨1, _⟩ => show win1_2.index t (1 : Fin 2) * 1 + 1 * 0 = 0; omega
  have e3 : ∀ k : Fin 128, ((cfg1.win 3).blk t).view.emb (ix2 (0 : Fin 1) k) = (ix2 (0 : Fin 1) k : S1x128.Idx) := fun k => by
    funext a; apply Fin.ext
    match a with
    | ⟨0, _⟩ => show win1_3.index t (0 : Fin 2) * 1 + 1 * 0 = 0; omega
    | ⟨1, _⟩ => show win1_3.index t (1 : Fin 2) * 128 + 1 * k.val = k.val; omega
  have e4 : ∀ k : Fin 128, ((cfg1.win 4).blk t).view.emb (ix2 k q) = (ix2 k q : S128x128.Idx) := fun k => by
    funext a; apply Fin.ext
    match a with
    | ⟨0, _⟩ => show win1_4.index t (0 : Fin 2) * 128 + 1 * k.val = k.val; omega
    | ⟨1, _⟩ => show win1_4.index t (1 : Fin 2) * 128 + 1 * q.val = q.val; omega
  rw [e5]
  show _ = entry1 V c pt q
  unfold entry1
  refine Finset.sum_congr rfl fun k _ => ?_
  rw [e0 k, e1 k, e2, e3 k, e4 k]

/-- Row `p` of the result array is in the block of point `p / 2000`; every point writes its block back. -/
private theorem region1_arr (c : Dev nD) : (dat1 (F := Ideal) V c).arrAt 5 cfg1.N = arr1 V c :=
  (dat1 (F := Ideal) V c).arrAt_eq_of_cover 5 (arr1 V c) (fun t _ => flushed1_5_eq V c t) fun i => by
    have hi0 : (i 0).val < 50000 := (i 0).isLt
    have hi1 : (i 1).val < 128 := (i 1).isLt
    have hN : grid1.N = 25 := N_1
    let t : Fin cfg1.N := ⟨(i 0).val / 2000, by show (i 0).val / 2000 < grid1.N; rw [hN]; omega⟩
    refine ⟨t, flush1_5 t, ?_⟩
    obtain ⟨f50, f51, -⟩ := idx_facts1 t
    show i ∈ ((View.whole main_v47).slice (win1_5.rect t)).set
    rw [View.set_slice_whole, Rect.mem_set_unit]
    intro a
    match a with
    | ⟨0, _⟩ =>
      show win1_5.index t (0 : Fin 2) * 2000 ≤ (i 0).val ∧ (i 0).val < win1_5.index t (0 : Fin 2) * 2000 + 2000
      rw [f50]; show (i 0).val / 2000 * 2000 ≤ (i 0).val ∧ (i 0).val < (i 0).val / 2000 * 2000 + 2000; omega
    | ⟨1, _⟩ =>
      show win1_5.index t (1 : Fin 2) * 128 ≤ (i 1).val ∧ (i 1).val < win1_5.index t (1 : Fin 2) * 128 + 128
      rw [f51]; omega

/-- Region 1 (combine, rectify, dense product): entry (p, q) of the result array. -/
theorem region1 (c : Dev nD) (p : Fin 50000) (q : Fin 128) :
    ((dat1 (F := Ideal) V c).arrAt 5 cfg1.N : S50000x128.Idx → EReal) (ix2 p q)
      = ∑ k : Fin 128, Cert.Spec.comb ((V c main_v46 : S50000x128.Idx → EReal) (ix2 p k)) ((V c main_v32 : S50000x128.Idx → EReal) (ix2 p k))
            ((V c main_v28 : S50000x1.Idx → EReal) (ix2 p 0)) ((V c main_v29 : S1x128.Idx → EReal) (ix2 0 k))
          * (V c main_arg5 : S128x128.Idx → EReal) (ix2 k q) := by
  rw [region1_arr V c]
  rfl

end Cert.KernelIdeal.KV

end
-- ==== Proof.SumSplit.lean ====
/- A sum over 50000 nodes is the sum over 25 tiles of the sums over each tile's 2000 rows. -/
import Mathlib.Algebra.BigOperators.Fin
import Mathlib.Data.EReal.Basic
import Mathlib.Logic.Equiv.Fin.Basic

namespace Cert.Spec

/-- Node `2000 · t + r` is row `r` of tile `t`. -/
def node (t : Fin 25) (r : Fin 2000) : Fin 50000 := ⟨2000 * t.val + r.val, by have := t.isLt; have := r.isLt; omega⟩

theorem sum_tiles {M : Type*} [AddCommMonoid M] (f : Fin 50000 → M) :
    ∑ n : Fin 50000, f n = ∑ t : Fin 25, ∑ r : Fin 2000, f (node t r) := by
  rw [← Fintype.sum_prod_type']
  refine (Fintype.sum_equiv (finProdFinEquiv (m := 25) (n := 2000)) (fun p => f (node p.1 p.2)) f (fun p => ?_)).symm
  refine congrArg f (Fin.ext ?_)
  show 2000 * p.1.val + p.2.val = p.2.val + 2000 * p.1.val
  omega

end Cert.Spec
-- ==== Proof.Region2.lean ====
/- Region 2 pools node features by graph id over a grid of 25 tiles of 2000 nodes. Each grid point adds to two
   accumulators that stay in place across the grid: entry (g, d) of the pooled block gains the sum, over the tile's
   rows whose graph id is g, of the row's combined and rectified feature d (a one-hot matrix transposed, times the
   rectified tile), and entry g of the count block gains the number of such rows (the same one-hot matrix times a
   column of ones). The first point zeroes both accumulators before adding. Only the last point writes back, and its
   block is the whole array, so each array ends as the sum over all 25 tiles, which is the sum over all 50000 nodes. -/
import proofs.«405578_j67937792688660_2_alg».proof.Proof.Gen.KernelIdeal.Frame
import proofs.«405578_j67937792688660_2_alg».proof.Proof.Spec
import proofs.«405578_j67937792688660_2_alg».proof.Proof.SumSplit
import Idealize.ShloMosaic.Lib.ValueLayout
import Idealize.ShloMosaic.Lib.Pipeline.Value
import Idealize.ShloMosaic.Lib.IdealHost
import Idealize.ShloMosaic.Lib.Tactic

set_option maxRecDepth 16384

noncomputable section

namespace Cert.KernelIdeal.KV

open Idealize.ShloMosaic Idealize.ShloMosaic.TcCoe Idealize.SL.Sem
open Idealize.ShloMosaic.Pipeline (Dat)
open Idealize.ShloMosaic.ValueIdx (ix1 ix2)
open Idealize.ShloMosaic.ValueIdx
open Cert.KernelIdeal Cert.KernelIdeal.Gen

/-! ## The body's arithmetic, entry by entry -/

/-- The indicator word of a comparison, converted to a float, is the indicator of the graph id. -/
theorem onehot_word (b : BitVec 32) (g : Fin 64) :
    (FloatOps.sitofp (F := Ideal) .f32 ((IntOp.cmpi .eq b (BitVec.ofNat 32 g.val)).setWidth 32) : EReal)
      = Cert.Spec.onehot b g := by
  unfold Cert.Spec.onehot IntOp.cmpi
  by_cases h : b = BitVec.ofNat 32 g.val
  · rw [if_pos h]
    have e : (b == BitVec.ofNat 32 g.val) = true := by simpa using h
    rw [e]
    show (((BitVec.setWidth 32 (BitVec.ofBool true)).toInt : ℝ) : EReal) = 1
    have e2 : (BitVec.setWidth 32 (BitVec.ofBool true)).toInt = 1 := by decide
    rw [e2]; simp
  · rw [if_neg h]
    have e : (b == BitVec.ofNat 32 g.val) = false := by simpa using h
    rw [e]
    show (((BitVec.setWidth 32 (BitVec.ofBool false)).toInt : ℝ) : EReal) = 0
    have e2 : (BitVec.setWidth 32 (BitVec.ofBool false)).toInt = 0 := by decide
    rw [e2]; simp

/-- Entry (r, g) of the one-hot block: the indicator that row r's graph id is g. -/
theorem pay4_apply (ids : Vec Ideal S2000x1 .i32) (r : Fin 2000) (g : Fin 64) :
    (k2_pay4 (F := Ideal) ids) (ix2 r g) = Cert.Spec.onehot (ids (ix2 r 0)) g := by
  have e1 : broadcastTo S2000x64 (shapeCast S2000x1 ids shapeCasts_S2000x1_S2000x1) broadcasts_S2000x1_S2000x64 (ix2 r g)
      = ids (ix2 r 0) := by
    rw [shapeCast_self]
    exact broadcastTo_apply _ _ _ (ix2 r 0) (fun a => match a with | ⟨0, _⟩ => rfl | ⟨1, _⟩ => rfl)
  have e2 : iota .tc S2000x64 32 [1] iota_S2000x64_d1_w32 (ix2 r g) = BitVec.ofNat 32 g.val :=
    iota_single_apply .tc S2000x64 32 1 iota_S2000x64_d1_w32 (ix2 r g)
  unfold k2_pay4
  show FloatOps.sitofp (F := Ideal) .f32 ((IntOp.cmpi .eq
      (broadcastTo S2000x64 (shapeCast S2000x1 ids shapeCasts_S2000x1_S2000x1) broadcasts_S2000x1_S2000x64 (ix2 r g))
      (iota .tc S2000x64 32 [1] iota_S2000x64_d1_w32 (ix2 r g))).setWidth 32) = _
  rw [e1, e2]
  exact onehot_word _ g

/-! The two block products contract the 2000 rows of a tile: left operand at (g, r), right operand at (r, ·). -/

theorem lhs_pool_0 (i : S64x128.Idx) (q : dot_S64x2000_S2000x128_S64x128_1_0_0_1_n_n.contr.Idx) :
    (dot_S64x2000_S2000x128_S64x128_1_0_0_1_n_n.lhsIdx i q 0).val = (i 0).val := by
  unfold DotDims.lhsIdx
  rw [dif_neg (show ¬(0 : Fin S64x2000.rank) ∈ dot_S64x2000_S2000x128_S64x128_1_0_0_1_n_n.lhsBatch by decide), dif_pos (show (0 : Fin S64x2000.rank) ∈ dot_S64x2000_S2000x128_S64x128_1_0_0_1_n_n.lhsNonContracting by decide)]
  rfl
theorem lhs_pool_1 (i : S64x128.Idx) (q : dot_S64x2000_S2000x128_S64x128_1_0_0_1_n_n.contr.Idx) :
    (dot_S64x2000_S2000x128_S64x128_1_0_0_1_n_n.lhsIdx i q 1).val = (q ⟨0, by decide⟩).val :=
  dot_S64x2000_S2000x128_S64x128_1_0_0_1_n_n.lhsIdx_val_of_single rfl i q
theorem rhs_pool_0 (i : S64x128.Idx) (q : dot_S64x2000_S2000x128_S64x128_1_0_0_1_n_n.contr.Idx) :
    (dot_S64x2000_S2000x128_S64x128_1_0_0_1_n_n.rhsIdx i q 0).val = (q ⟨0, by decide⟩).val :=
  dot_S64x2000_S2000x128_S64x128_1_0_0_1_n_n.rhsIdx_val_of_single rfl i q
theorem rhs_pool_1 (i : S64x128.Idx) (q : dot_S64x2000_S2000x128_S64x128_1_0_0_1_n_n.contr.Idx) :
    (dot_S64x2000_S2000x128_S64x128_1_0_0_1_n_n.rhsIdx i q 1).val = (i 1).val := by
  unfold DotDims.rhsIdx
  rw [dif_neg (show ¬(1 : Fin S2000x128.rank) ∈ dot_S64x2000_S2000x128_S64x128_1_0_0_1_n_n.rhsBatch by decide), dif_pos (show (1 : Fin S2000x128.rank) ∈ dot_S64x2000_S2000x128_S64x128_1_0_0_1_n_n.rhsNonContracting by decide)]
  rfl

/-- The pooled block product at (g, d): the sum over the tile's rows. -/
theorem matmul_pool_apply (L : FVec Ideal S64x2000 .bf16) (R : FVec Ideal S2000x128 .bf16) (g : Fin 64) (d : Fin 128) :
    matmul dot_S64x2000_S2000x128_S64x128_1_0_0_1_n_n none L R (constant (F := Ideal) S64x128 .f32 0x00000000#32) (ix2 g d)
      = ∑ r : Fin 2000, L (ix2 g r) * R (ix2 r d) := by
  simp only [matmul]
  rw [Ideal.matmul_constant_zero_apply, ← Equiv.sum_comp (ValueIdx.contrEquiv1 dot_S64x2000_S2000x128_S64x128_1_0_0_1_n_n 2000 rfl rfl).symm]
  refine Finset.sum_congr rfl fun k _ => ?_
  have hk := ValueIdx.contrEquiv1_symm_val dot_S64x2000_S2000x128_S64x128_1_0_0_1_n_n 2000 rfl rfl k
  have el : dot_S64x2000_S2000x128_S64x128_1_0_0_1_n_n.lhsIdx (ix2 g d) ((ValueIdx.contrEquiv1 dot_S64x2000_S2000x128_S64x128_1_0_0_1_n_n 2000 rfl rfl).symm k) = ix2 g k := funext fun a => Fin.ext (by
    match a with
    | ⟨0, _⟩ => exact lhs_pool_0 _ _
    | ⟨1, _⟩ => exact (lhs_pool_1 _ _).trans hk)
  have er : dot_S64x2000_S2000x128_S64x128_1_0_0_1_n_n.rhsIdx (ix2 g d) ((ValueIdx.contrEquiv1 dot_S64x2000_S2000x128_S64x128_1_0_0_1_n_n 2000 rfl rfl).symm k) = ix2 k d := funext fun a => Fin.ext (by
    match a with
    | ⟨0, _⟩ => exact (rhs_pool_0 _ _).trans hk
    | ⟨1, _⟩ => exact rhs_pool_1 _ _)
  rw [el, er]

theorem lhs_cnt_0 (i : S64x1.Idx) (q : dot_S64x2000_S2000x1_S64x1_1_0_0_1_n_n.contr.Idx) :
    (dot_S64x2000_S2000x1_S64x1_1_0_0_1_n_n.lhsIdx i q 0).val = (i 0).val := by
  unfold DotDims.lhsIdx
  rw [dif_neg (show ¬(0 : Fin S64x2000.rank) ∈ dot_S64x2000_S2000x1_S64x1_1_0_0_1_n_n.lhsBatch by decide), dif_pos (show (0 : Fin S64x2000.rank) ∈ dot_S64x2000_S2000x1_S64x1_1_0_0_1_n_n.lhsNonContracting by decide)]
  rfl
theorem lhs_cnt_1 (i : S64x1.Idx) (q : dot_S64x2000_S2000x1_S64x1_1_0_0_1_n_n.contr.Idx) :
    (dot_S64x2000_S2000x1_S64x1_1_0_0_1_n_n.lhsIdx i q 1).val = (q ⟨0, by decide⟩).val :=
  dot_S64x2000_S2000x1_S64x1_1_0_0_1_n_n.lhsIdx_val_of_single rfl i q
theorem rhs_cnt_0 (i : S64x1.Idx) (q : dot_S64x2000_S2000x1_S64x1_1_0_0_1_n_n.contr.Idx) :
    (dot_S64x2000_S2000x1_S64x1_1_0_0_1_n_n.rhsIdx i q 0).val = (q ⟨0, by decide⟩).val :=
  dot_S64x2000_S2000x1_S64x1_1_0_0_1_n_n.rhsIdx_val_of_single rfl i q
theorem rhs_cnt_1 (i : S64x1.Idx) (q : dot_S64x2000_S2000x1_S64x1_1_0_0_1_n_n.contr.Idx) :
    (dot_S64x2000_S2000x1_S64x1_1_0_0_1_n_n.rhsIdx i q 1).val = (i 1).val := by
  unfold DotDims.rhsIdx
  rw [dif_neg (show ¬(1 : Fin S2000x1.rank) ∈ dot_S64x2000_S2000x1_S64x1_1_0_0_1_n_n.rhsBatch by decide), dif_pos (show (1 : Fin S2000x1.rank) ∈ dot_S64x2000_S2000x1_S64x1_1_0_0_1_n_n.rhsNonContracting by decide)]
  rfl

/-- The counting block product at (g, 0): the sum over the tile's rows. -/
theorem matmul_cnt_apply (L : FVec Ideal S64x2000 .bf16) (R : FVec Ideal S2000x1 .bf16) (g : Fin 64) :
    matmul dot_S64x2000_S2000x1_S64x1_1_0_0_1_n_n none L R (constant (F := Ideal) S64x1 .f32 0x00000000#32) (ix2 g 0)
      = ∑ r : Fin 2000, L (ix2 g r) * R (ix2 r 0) := by
  simp only [matmul]
  rw [Ideal.matmul_constant_zero_apply, ← Equiv.sum_comp (ValueIdx.contrEquiv1 dot_S64x2000_S2000x1_S64x1_1_0_0_1_n_n 2000 rfl rfl).symm]
  refine Finset.sum_congr rfl fun k _ => ?_
  have hk := ValueIdx.contrEquiv1_symm_val dot_S64x2000_S2000x1_S64x1_1_0_0_1_n_n 2000 rfl rfl k
  have el : dot_S64x2000_S2000x1_S64x1_1_0_0_1_n_n.lhsIdx (ix2 g 0) ((ValueIdx.contrEquiv1 dot_S64x2000_S2000x1_S64x1_1_0_0_1_n_n 2000 rfl rfl).symm k) = ix2 g k := funext fun a => Fin.ext (by
    match a with
    | ⟨0, _⟩ => exact lhs_cnt_0 _ _
    | ⟨1, _⟩ => exact (lhs_cnt_1 _ _).trans hk)
  have er : dot_S64x2000_S2000x1_S64x1_1_0_0_1_n_n.rhsIdx (ix2 g 0) ((ValueIdx.contrEquiv1 dot_S64x2000_S2000x1_S64x1_1_0_0_1_n_n 2000 rfl rfl).symm k) = ix2 k 0 := funext fun a => Fin.ext (by
    match a with
    | ⟨0, _⟩ => exact (rhs_cnt_0 _ _).trans hk
    | ⟨1, _⟩ => exact rhs_cnt_1 _ _)
  rw [el, er]

/-- The combined and rectified tile, as the body computes it before pooling. -/
def act (h : FVec Ideal S2000x128 .bf16) (agg : FVec Ideal S2000x128 .f32) (d2 : FVec Ideal S2000x1 .f32) (b : FVec Ideal S1x128 .f32) :
    FVec Ideal S2000x128 .bf16 :=
  have v16 : FVec Ideal S2000x128 .f32 :=
    addf (addf (shapeCast S2000x128 agg shapeCasts_S2000x128_S2000x128)
        (mulf (extf .f32 (shapeCast S2000x128 h shapeCasts_S2000x128_S2000x128) bitsLt_bf16_f32)
          (broadcastTo S2000x128 (shapeCast S2000x1 d2 shapeCasts_S2000x1_S2000x1) broadcasts_S2000x1_S2000x128)))
      (broadcastTo S2000x128 (shapeCast S1x128 b shapeCasts_S1x128_S1x128) broadcasts_S1x128_S2000x128)
  truncf .bf16 (select (cmpf .oge v16 (broadcast S2000x128 (Scalar.ofBits .f32 0x00000000#32))) v16
    (mulf (broadcast S2000x128 (Scalar.ofBits .f32 0x3DCCCCCD#32)) v16)) bitsLt_bf16_f32

/-- Entry (r, d) of that tile is the combine step of row r's feature d. -/
theorem act_apply (h : FVec Ideal S2000x128 .bf16) (agg : FVec Ideal S2000x128 .f32) (d2 : FVec Ideal S2000x1 .f32) (b : FVec Ideal S1x128 .f32)
    (r : Fin 2000) (d : Fin 128) :
    act h agg d2 b (ix2 r d) = Cert.Spec.comb (agg (ix2 r d)) (h (ix2 r d)) (d2 (ix2 r 0)) (b (ix2 0 d)) := by
  have e12 : broadcastTo S2000x128 (shapeCast S2000x1 d2 shapeCasts_S2000x1_S2000x1) broadcasts_S2000x1_S2000x128 (ix2 r d) = d2 (ix2 r 0) := by
    rw [shapeCast_self]
    exact broadcastTo_apply _ _ _ (ix2 r 0) (fun a => match a with | ⟨0, _⟩ => rfl | ⟨1, _⟩ => rfl)
  have e15 : broadcastTo S2000x128 (shapeCast S1x128 b shapeCasts_S1x128_S1x128) broadcasts_S1x128_S2000x128 (ix2 r d) = b (ix2 0 d) := by
    rw [shapeCast_self]
    exact broadcastTo_1b_ab_apply _ _ r d
  have e7 : shapeCast S2000x128 agg shapeCasts_S2000x128_S2000x128 (ix2 r d) = agg (ix2 r d) := by rw [shapeCast_self]
  have e5 : shapeCast S2000x128 h shapeCasts_S2000x128_S2000x128 (ix2 r d) = h (ix2 r d) := by rw [shapeCast_self]
  unfold act Cert.Spec.comb Cert.Spec.leaky
  show Scalar.select (FloatOps.cmpf (F := Ideal) .oge
        (FloatOps.addf (FloatOps.addf (shapeCast S2000x128 agg shapeCasts_S2000x128_S2000x128 (ix2 r d))
          (FloatOps.mulf (shapeCast S2000x128 h shapeCasts_S2000x128_S2000x128 (ix2 r d))
            (broadcastTo S2000x128 (shapeCast S2000x1 d2 shapeCasts_S2000x1_S2000x1) broadcasts_S2000x1_S2000x128 (ix2 r d))))
          (broadcastTo S2000x128 (shapeCast S1x128 b shapeCasts_S1x128_S1x128) broadcasts_S1x128_S2000x128 (ix2 r d)))
        (FloatOps.ofBits .f32 0x00000000#32))
      (FloatOps.addf (FloatOps.addf (shapeCast S2000x128 agg shapeCasts_S2000x128_S2000x128 (ix2 r d))
          (FloatOps.mulf (shapeCast S2000x128 h shapeCasts_S2000x128_S2000x128 (ix2 r d))
            (broadcastTo S2000x128 (shapeCast S2000x1 d2 shapeCasts_S2000x1_S2000x1) broadcasts_S2000x1_S2000x128 (ix2 r d))))
          (broadcastTo S2000x128 (shapeCast S1x128 b shapeCasts_S1x128_S1x128) broadcasts_S1x128_S2000x128 (ix2 r d)))
      (FloatOps.mulf (FloatOps.ofBits .f32 0x3DCCCCCD#32)
        (FloatOps.addf (FloatOps.addf (shapeCast S2000x128 agg shapeCasts_S2000x128_S2000x128 (ix2 r d))
          (FloatOps.mulf (shapeCast S2000x128 h shapeCasts_S2000x128_S2000x128 (ix2 r d))
            (broadcastTo S2000x128 (shapeCast S2000x1 d2 shapeCasts_S2000x1_S2000x1) broadcasts_S2000x1_S2000x128 (ix2 r d))))
          (broadcastTo S2000x128 (shapeCast S1x128 b shapeCasts_S1x128_S1x128) broadcasts_S1x128_S2000x128 (ix2 r d)))) = _
  rw [e12, e15, e7, e5]

/-- The pooled payload is the previous block plus the one-hot block transposed times the rectified tile. -/
theorem pay5_eq (h : Vec Ideal S2000x128 .bf16) (agg : Vec Ideal S2000x128 .f32) (d2 : Vec Ideal S2000x1 .f32) (b : Vec Ideal S1x128 .f32)
    (ids : Vec Ideal S2000x1 .i32) (prev : Vec Ideal S64x128 .f32) :
    k2_pay5 (F := Ideal) h agg d2 b ids prev
      = addf (shapeCast S64x128 prev shapeCasts_S64x128_S64x128)
          (matmul dot_S64x2000_S2000x128_S64x128_1_0_0_1_n_n none
            (transpose S64x2000 [1, 0] (k2_pay4 (F := Ideal) ids) transposes_S2000x64_p1_0_S64x2000) (act h agg d2 b)
            (constant (F := Ideal) S64x128 .f32 0x00000000#32)) := rfl

/-- Entry (g, d) of the pooled payload: the previous entry plus the tile's rows of graph g, combined and rectified. -/
theorem pay5_apply (h : Vec Ideal S2000x128 .bf16) (agg : Vec Ideal S2000x128 .f32) (d2 : Vec Ideal S2000x1 .f32) (b : Vec Ideal S1x128 .f32)
    (ids : Vec Ideal S2000x1 .i32) (prev : Vec Ideal S64x128 .f32) (g : Fin 64) (d : Fin 128) :
    k2_pay5 (F := Ideal) h agg d2 b ids prev (ix2 g d)
      = prev (ix2 g d) + ∑ r : Fin 2000, Cert.Spec.onehot (ids (ix2 r 0)) g
          * Cert.Spec.comb (agg (ix2 r d)) (h (ix2 r d)) (d2 (ix2 r 0)) (b (ix2 0 d)) := by
  rw [pay5_eq]
  refine (addf_apply _ _ _).trans ?_
  rw [shapeCast_self, matmul_pool_apply]
  refine congrArg (prev (ix2 g d) + ·) (Finset.sum_congr rfl fun r _ => ?_)
  rw [transpose_ix2_apply, pay4_apply, act_apply]

/-- Entry g of the count payload: the previous entry plus the number of the tile's rows of graph g. -/
theorem pay1_apply (ids : Vec Ideal S2000x1 .i32) (prev : Vec Ideal S64x1 .f32) (g : Fin 64) :
    k2_pay1 (F := Ideal) (k2_pay4 (F := Ideal) ids) (Scalar.ofBits .bf16 0x3F80#16) prev (ix2 g 0)
      = prev (ix2 g 0) + ∑ r : Fin 2000, Cert.Spec.onehot (ids (ix2 r 0)) g := by
  unfold k2_pay1
  refine (addf_apply _ _ _).trans ?_
  rw [shapeCast_self, matmul_cnt_apply]
  refine congrArg (prev (ix2 g 0) + ·) (Finset.sum_congr rfl fun r _ => ?_)
  rw [transpose_ix2_apply, pay4_apply]
  show _ * Ideal.ofBits .bf16 0x3F80#16 = _
  rw [Ideal.ofBits_one_bf16, mul_one]

/-! ## What each control case leaves in the two accumulators -/

section Pieces
variable {F : FTy → Type} [FloatOps F]

theorem hz2 : (![0, 0] : Fin 2 → Nat) = fun _ => 0 := funext fun a => by fin_cases a <;> rfl

/-- A later point leaves in the pooled block what it held plus this tile's contribution. -/
theorem outB5_eq (c : Dev nD) (i : grid2.Coords) (arg1 : Memref sig .tc .vmem S2000x128 .bf16) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x1 .i32) (harg5 : arg5.IsWhole) (arg6 : Memref sig .tc .vmem S64x128 .f32) (harg6 : arg6.IsWhole) (arg7 : Memref sig .tc .vmem S64x1 .f32) (harg7 : arg7.IsWhole) (hc0 : ¬cond2_0 i) (x0 : Vec F S2000x128 .bf16) (x1 : Vec F S2000x128 .f32) (x2 : Vec F S2000x1 .f32) (x3 : Vec F S1x128 .f32) (x4 : Vec F S2000x1 .i32) (xo5 : Vec F S64x128 .f32) (xo6 : Vec F S64x1 .f32) :
    out2_B_5 c i arg1 harg1 arg2 harg2 arg3 harg3 arg4 harg4 arg5 harg5 arg6 harg6 arg7 harg7 hc0 x0 x1 x2 x3 x4 xo5 xo6 = k2_pay5 x0 x1 x2 x3 x4 xo5 := by
  unfold out2_B_5
  rw [View.read_writes_eq_canon _ _ _ (cover2_B_5 c i arg1 harg1 arg2 harg2 arg3 harg3 arg4 harg4 arg5 harg5 arg6 harg6 arg7 harg7 hc0 x0 x1 x2 x3 x4 xo5 xo6)]
  unfold kernelRun2_B
  dsimp only
  sl_unfold_words
  rw [View.canon_unit_zero hz2]
  simp only [View.readAt_eq_ld, harg1.read_unread, harg2.read_unread, harg3.read_unread, harg4.read_unread, harg5.read_unread, harg6.read_unread,
    View.ld_unit_zero (S := S2000x128) hz2, View.ld_unit_zero (S := S2000x1) hz2, View.ld_unit_zero (S := S1x128) hz2, View.ld_unit_zero (S := S64x128) hz2]

/-- A later point leaves in the count block what it held plus this tile's counts. -/
theorem outB6_eq (c : Dev nD) (i : grid2.Coords) (arg1 : Memref sig .tc .vmem S2000x128 .bf16) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x1 .i32) (harg5 : arg5.IsWhole) (arg6 : Memref sig .tc .vmem S64x128 .f32) (harg6 : arg6.IsWhole) (arg7 : Memref sig .tc .vmem S64x1 .f32) (harg7 : arg7.IsWhole) (hc0 : ¬cond2_0 i) (x0 : Vec F S2000x128 .bf16) (x1 : Vec F S2000x128 .f32) (x2 : Vec F S2000x1 .f32) (x3 : Vec F S1x128 .f32) (x4 : Vec F S2000x1 .i32) (xo5 : Vec F S64x128 .f32) (xo6 : Vec F S64x1 .f32) :
    out2_B_6 c i arg1 harg1 arg2 harg2 arg3 harg3 arg4 harg4 arg5 harg5 arg6 harg6 arg7 harg7 hc0 x0 x1 x2 x3 x4 xo5 xo6 = k2_pay1 (k2_pay4 x4) (Scalar.ofBits .bf16 0x3F80#16) xo6 := by
  unfold out2_B_6
  rw [View.read_writes_eq_canon _ _ _ (cover2_B_6 c i arg1 harg1 arg2 harg2 arg3 harg3 arg4 harg4 arg5 harg5 arg6 harg6 arg7 harg7 hc0 x0 x1 x2 x3 x4 xo5 xo6)]
  unfold kernelRun2_B
  dsimp only
  sl_unfold_words
  rw [View.canon_unit_zero hz2]
  simp only [View.readAt_eq_ld, harg1.read_unread, harg2.read_unread, harg3.read_unread, harg4.read_unread, harg5.read_unread, harg7.read_unread,
    View.ld_unit_zero (S := S2000x128) hz2, View.ld_unit_zero (S := S2000x1) hz2, View.ld_unit_zero (S := S1x128) hz2, View.ld_unit_zero (S := S64x1) hz2]

/-- The first point zeroes the pooled block, then adds its tile's contribution. -/
theorem outA5_eq (c : Dev nD) (i : grid2.Coords) (arg1 : Memref sig .tc .vmem S2000x128 .bf16) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x1 .i32) (harg5 : arg5.IsWhole) (arg6 : Memref sig .tc .vmem S64x128 .f32) (harg6 : arg6.IsWhole) (arg7 : Memref sig .tc .vmem S64x1 .f32) (harg7 : arg7.IsWhole) (hc0 : cond2_0 i) (x0 : Vec F S2000x128 .bf16) (x1 : Vec F S2000x128 .f32) (x2 : Vec F S2000x1 .f32) (x3 : Vec F S1x128 .f32) (x4 : Vec F S2000x1 .i32) :
    out2_A_5 c i arg1 harg1 arg2 harg2 arg3 harg3 arg4 harg4 arg5 harg5 arg6 harg6 arg7 harg7 hc0 x0 x1 x2 x3 x4 = k2_pay5 x0 x1 x2 x3 x4 (k2_pay2 (F := F)) := by
  unfold out2_A_5
  rw [View.read_writes_eq_canon _ _ _ (cover2_A_5 c i arg1 harg1 arg2 harg2 arg3 harg3 arg4 harg4 arg5 harg5 arg6 harg6 arg7 harg7 hc0 x0 x1 x2 x3 x4)]
  unfold kernelRun2_A
  dsimp only
  sl_unfold_words
  rw [View.canon_cons_unit_zero (S := S64x128) hz2, View.readCov_unit_zero (S := S64x128) _ hz2]
  simp only [View.readAt_eq_ld, harg1.read_unread, harg2.read_unread, harg3.read_unread, harg4.read_unread, harg5.read_unread,
    View.ld_unit_zero (S := S2000x128) hz2, View.ld_unit_zero (S := S2000x1) hz2, View.ld_unit_zero (S := S1x128) hz2, View.ld_unit_zero (S := S64x128) hz2]

/-- The first point zeroes the count block, then adds its tile's counts. -/
theorem outA6_eq (c : Dev nD) (i : grid2.Coords) (arg1 : Memref sig .tc .vmem S2000x128 .bf16) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x1 .i32) (harg5 : arg5.IsWhole) (arg6 : Memref sig .tc .vmem S64x128 .f32) (harg6 : arg6.IsWhole) (arg7 : Memref sig .tc .vmem S64x1 .f32) (harg7 : arg7.IsWhole) (hc0 : cond2_0 i) (x0 : Vec F S2000x128 .bf16) (x1 : Vec F S2000x128 .f32) (x2 : Vec F S2000x1 .f32) (x3 : Vec F S1x128 .f32) (x4 : Vec F S2000x1 .i32) :
    out2_A_6 c i arg1 harg1 arg2 harg2 arg3 harg3 arg4 harg4 arg5 harg5 arg6 harg6 arg7 harg7 hc0 x0 x1 x2 x3 x4 = k2_pay1 (k2_pay4 x4) (Scalar.ofBits .bf16 0x3F80#16) (k2_pay3 (F := F)) := by
  unfold out2_A_6
  rw [View.read_writes_eq_canon _ _ _ (cover2_A_6 c i arg1 harg1 arg2 harg2 arg3 harg3 arg4 harg4 arg5 harg5 arg6 harg6 arg7 harg7 hc0 x0 x1 x2 x3 x4)]
  unfold kernelRun2_A
  dsimp only
  sl_unfold_words
  rw [View.canon_cons_unit_zero (S := S64x1) hz2, View.readCov_unit_zero (S := S64x1) _ hz2]
  simp only [View.readAt_eq_ld, harg1.read_unread, harg2.read_unread, harg3.read_unread, harg4.read_unread, harg5.read_unread,
    View.ld_unit_zero (S := S2000x128) hz2, View.ld_unit_zero (S := S2000x1) hz2, View.ld_unit_zero (S := S1x128) hz2, View.ld_unit_zero (S := S64x1) hz2]

end Pieces

/-! ## The region's arrays and blocks, at their literal types -/

section Arrays
variable (V : (c : Dev nD) → (b : Ref sig .tc) → Buf (Elt Ideal) ((c : Thread nD τ).loc b))

theorem lt25 (t : Fin cfg2.N) : t.val < 25 := lt_of_lt_of_eq t.isLt N_2

/-- The node held by row r of the tile of grid point t. -/
abbrev tnode (t : Fin cfg2.N) (r : Fin 2000) : Fin 50000 := Cert.Spec.node ⟨t.val, lt25 t⟩ r

abbrev harr (c : Dev nD) : S50000x128.Idx → EReal := V c main_v47
abbrev aggarr (c : Dev nD) : S50000x128.Idx → EReal := V c main_v61
abbrev d2arr (c : Dev nD) : S50000x1.Idx → EReal := V c main_v28
abbrev barr (c : Dev nD) : S1x128.Idx → EReal := V c main_v30
abbrev idarr (c : Dev nD) : S50000x1.Idx → BitVec 32 := V c main_v4

abbrev hblk (c : Dev nD) (t : Fin cfg2.N) : Vec Ideal S2000x128 .bf16 := iblk2 V c 0 t
abbrev aggblk (c : Dev nD) (t : Fin cfg2.N) : Vec Ideal S2000x128 .f32 := iblk2 V c 1 t
abbrev d2blk (c : Dev nD) (t : Fin cfg2.N) : Vec Ideal S2000x1 .f32 := iblk2 V c 2 t
abbrev bblk (c : Dev nD) (t : Fin cfg2.N) : Vec Ideal S1x128 .f32 := iblk2 V c 3 t
abbrev idblk (c : Dev nD) (t : Fin cfg2.N) : Vec Ideal S2000x1 .i32 := iblk2 V c 4 t

/-! Row r of a point's block is node 2000 t + r of the array: a block's coordinate is index × size + the inner one. -/

theorem hblk_apply (c : Dev nD) (t : Fin cfg2.N) (r : Fin 2000) (d : Fin 128) :
    hblk V c t (ix2 r d) = harr V c (ix2 (tnode t r) d) := by
  have hi : win2_0.index t 0 = t.val ∧ win2_0.index t 1 = 0 :=
    (by decide +kernel : ∀ t : Fin grid2.N, win2_0.index t 0 = t.val ∧ win2_0.index t 1 = 0) t
  unfold hblk iblk2
  rw [View.read_apply]
  show V c main_v47 _ = V c main_v47 _
  refine congrArg (V c main_v47) (funext fun a => Fin.ext ?_)
  match a with
  | ⟨0, _⟩ => show win2_0.index t 0 * 2000 + 1 * r.val = 2000 * t.val + r.val; rw [hi.1]; omega
  | ⟨1, _⟩ => show win2_0.index t 1 * 128 + 1 * d.val = d.val; rw [hi.2]; omega

theorem aggblk_apply (c : Dev nD) (t : Fin cfg2.N) (r : Fin 2000) (d : Fin 128) :
    aggblk V c t (ix2 r d) = aggarr V c (ix2 (tnode t r) d) := by
  have hi : win2_1.index t 0 = t.val ∧ win2_1.index t 1 = 0 :=
    (by decide +kernel : ∀ t : Fin grid2.N, win2_1.index t 0 = t.val ∧ win2_1.index t 1 = 0) t
  unfold aggblk iblk2
  rw [View.read_apply]
  show V c main_v61 _ = V c main_v61 _
  refine congrArg (V c main_v61) (funext fun a => Fin.ext ?_)
  match a with
  | ⟨0, _⟩ => show win2_1.index t 0 * 2000 + 1 * r.val = 2000 * t.val + r.val; rw [hi.1]; omega
  | ⟨1, _⟩ => show win2_1.index t 1 * 128 + 1 * d.val = d.val; rw [hi.2]; omega

theorem d2blk_apply (c : Dev nD) (t : Fin cfg2.N) (r : Fin 2000) :
    d2blk V c t (ix2 r 0) = d2arr V c (ix2 (tnode t r) 0) := by
  have hi : win2_2.index t 0 = t.val ∧ win2_2.index t 1 = 0 :=
    (by decide +kernel : ∀ t : Fin grid2.N, win2_2.index t 0 = t.val ∧ win2_2.index t 1 = 0) t
  unfold d2blk iblk2
  rw [View.read_apply]
  show V c main_v28 _ = V c main_v28 _
  refine congrArg (V c main_v28) (funext fun a => Fin.ext ?_)
  match a with
  | ⟨0, _⟩ => show win2_2.index t 0 * 2000 + 1 * r.val = 2000 * t.val + r.val; rw [hi.1]; omega
  | ⟨1, _⟩ => show win2_2.index t 1 * 1 + 1 * 0 = 0; rw [hi.2]

theorem bblk_apply (c : Dev nD) (t : Fin cfg2.N) (d : Fin 128) :
    bblk V c t (ix2 0 d) = barr V c (ix2 0 d) := by
  have hi : win2_3.index t 0 = 0 ∧ win2_3.index t 1 = 0 :=
    (by decide +kernel : ∀ t : Fin grid2.N, win2_3.index t 0 = 0 ∧ win2_3.index t 1 = 0) t
  unfold bblk iblk2
  rw [View.read_apply]
  show V c main_v30 _ = V c main_v30 _
  refine congrArg (V c main_v30) (funext fun a => Fin.ext ?_)
  match a with
  | ⟨0, _⟩ => show win2_3.index t 0 * 1 + 1 * 0 = 0; rw [hi.1]
  | ⟨1, _⟩ => show win2_3.index t 1 * 128 + 1 * d.val = d.val; rw [hi.2]; omega

theorem idblk_apply (c : Dev nD) (t : Fin cfg2.N) (r : Fin 2000) :
    idblk V c t (ix2 r 0) = idarr V c (ix2 (tnode t r) 0) := by
  have hi : win2_4.index t 0 = t.val ∧ win2_4.index t 1 = 0 :=
    (by decide +kernel : ∀ t : Fin grid2.N, win2_4.index t 0 = t.val ∧ win2_4.index t 1 = 0) t
  unfold idblk iblk2
  rw [View.read_apply]
  show V c main_v4 _ = V c main_v4 _
  refine congrArg (V c main_v4) (funext fun a => Fin.ext ?_)
  match a with
  | ⟨0, _⟩ => show win2_4.index t 0 * 2000 + 1 * r.val = 2000 * t.val + r.val; rw [hi.1]; omega
  | ⟨1, _⟩ => show win2_4.index t 1 * 1 + 1 * 0 = 0; rw [hi.2]

/-! ## One tile's contribution, and the running sums -/

/-- What tile t adds to entry (g, d) of the pooled sums. -/
def tile (c : Dev nD) (g : Fin 64) (d : Fin 128) (t : Fin 25) : EReal :=
  ∑ r : Fin 2000, Cert.Spec.onehot (idarr V c (ix2 (Cert.Spec.node t r) 0)) g
    * Cert.Spec.comb (aggarr V c (ix2 (Cert.Spec.node t r) d)) (harr V c (ix2 (Cert.Spec.node t r) d))
        (d2arr V c (ix2 (Cert.Spec.node t r) 0)) (barr V c (ix2 0 d))

/-- What tile t adds to entry g of the counts. -/
def cnt (c : Dev nD) (g : Fin 64) (t : Fin 25) : EReal :=
  ∑ r : Fin 2000, Cert.Spec.onehot (idarr V c (ix2 (Cert.Spec.node t r) 0)) g

/-- The same, indexed by a natural number (zero past the grid). -/
def tileN (c : Dev nD) (g : Fin 64) (d : Fin 128) (t : ℕ) : EReal := if h : t < 25 then tile V c g d ⟨t, h⟩ else 0
def cntN (c : Dev nD) (g : Fin 64) (t : ℕ) : EReal := if h : t < 25 then cnt V c g ⟨t, h⟩ else 0

theorem pooled_A (c : Dev nD) (t : Fin cfg2.N) (h0 : t.val % 25 = 0) (g : Fin 64) (d : Fin 128) :
    ((outsAt2 V c t.val t.isLt).1 : S64x128.Idx → EReal) (ix2 g d) = tile V c g d ⟨t.val, lt25 t⟩ := by
  rw [outsAt2_A V c t h0]
  dsimp only
  refine (congrFun (outA5_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (iblk2 V c 0 t) (iblk2 V c 1 t) (iblk2 V c 2 t) (iblk2 V c 3 t) (iblk2 V c 4 t)) (ix2 g d)).trans ?_
  refine (pay5_apply (hblk V c t) (aggblk V c t) (d2blk V c t) (bblk V c t) (idblk V c t) (k2_pay2 (F := Ideal)) g d).trans ?_
  have z : (k2_pay2 (F := Ideal)) (ix2 g d) = 0 := Ideal.ofBits_zero_f32
  rw [z, zero_add]
  unfold tile
  refine Finset.sum_congr rfl fun r _ => ?_
  rw [idblk_apply, aggblk_apply, hblk_apply, d2blk_apply, bblk_apply]

theorem pooled_B (c : Dev nD) (t : Fin cfg2.N) (h0 : ¬t.val % 25 = 0) (g : Fin 64) (d : Fin 128) :
    ((outsAt2 V c t.val t.isLt).1 : S64x128.Idx → EReal) (ix2 g d)
      = ((outsAt2 V c (t.val - 1) (Nat.lt_of_le_of_lt (Nat.sub_le _ _) t.isLt)).1 : S64x128.Idx → EReal) (ix2 g d)
        + tile V c g d ⟨t.val, lt25 t⟩ := by
  rw [outsAt2_B V c t h0]
  dsimp only
  refine (congrFun (outB5_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).1 (outsAt2 V c (t.val - 1) (Nat.lt_of_le_of_lt (Nat.sub_le _ _) t.isLt)).2) (ix2 g d)).trans ?_
  refine (pay5_apply (hblk V c t) (aggblk V c t) (d2blk V c t) (bblk V c t) (idblk V c t) (outsAt2 V c (t.val - 1) (Nat.lt_of_le_of_lt (Nat.sub_le _ _) t.isLt)).1 g d).trans ?_
  unfold tile
  refine congrArg (_ + ·) (Finset.sum_congr rfl fun r _ => ?_)
  rw [idblk_apply, aggblk_apply, hblk_apply, d2blk_apply, bblk_apply]

theorem count_A (c : Dev nD) (t : Fin cfg2.N) (h0 : t.val % 25 = 0) (g : Fin 64) :
    ((outsAt2 V c t.val t.isLt).2 : S64x1.Idx → EReal) (ix2 g 0) = cnt V c g ⟨t.val, lt25 t⟩ := by
  rw [outsAt2_A V c t h0]
  dsimp only
  refine (congrFun (outA6_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (iblk2 V c 0 t) (iblk2 V c 1 t) (iblk2 V c 2 t) (iblk2 V c 3 t) (iblk2 V c 4 t)) (ix2 g 0)).trans ?_
  refine (pay1_apply (idblk V c t) (k2_pay3 (F := Ideal)) g).trans ?_
  have z : (k2_pay3 (F := Ideal)) (ix2 g 0) = 0 := Ideal.ofBits_zero_f32
  rw [z, zero_add]
  unfold cnt
  refine Finset.sum_congr rfl fun r _ => ?_
  rw [idblk_apply]

theorem count_B (c : Dev nD) (t : Fin cfg2.N) (h0 : ¬t.val % 25 = 0) (g : Fin 64) :
    ((outsAt2 V c t.val t.isLt).2 : S64x1.Idx → EReal) (ix2 g 0)
      = ((outsAt2 V c (t.val - 1) (Nat.lt_of_le_of_lt (Nat.sub_le _ _) t.isLt)).2 : S64x1.Idx → EReal) (ix2 g 0)
        + cnt V c g ⟨t.val, lt25 t⟩ := by
  rw [outsAt2_B V c t h0]
  dsimp only
  refine (congrFun (outB6_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).1 (outsAt2 V c (t.val - 1) (Nat.lt_of_le_of_lt (Nat.sub_le _ _) t.isLt)).2) (ix2 g 0)).trans ?_
  refine (pay1_apply (idblk V c t) (outsAt2 V c (t.val - 1) (Nat.lt_of_le_of_lt (Nat.sub_le _ _) t.isLt)).2 g).trans ?_
  unfold cnt
  refine congrArg (_ + ·) (Finset.sum_congr rfl fun r _ => ?_)
  rw [idblk_apply]

/-- After point n the pooled block holds the contributions of tiles 0 … n. -/
theorem pooled_inv (c : Dev nD) (g : Fin 64) (d : Fin 128) : ∀ (n : ℕ) (hn : n < cfg2.N),
    ((outsAt2 V c n hn).1 : S64x128.Idx → EReal) (ix2 g d) = ∑ t ∈ Finset.range (n + 1), tileN V c g d t
  | 0, hn => by
    rw [Finset.sum_range_one]
    refine (pooled_A V c ⟨0, hn⟩ rfl g d).trans ?_
    unfold tileN
    rw [dif_pos (by decide : 0 < 25)]
  | n + 1, hn => by
    have h25 : n + 1 < 25 := lt_of_lt_of_eq hn N_2
    have hB : ¬(⟨n + 1, hn⟩ : Fin cfg2.N).val % 25 = 0 := by dsimp only; omega
    rw [Finset.sum_range_succ, ← pooled_inv c g d n (Nat.lt_of_succ_lt hn)]
    refine (pooled_B V c ⟨n + 1, hn⟩ hB g d).trans ?_
    unfold tileN
    rw [dif_pos h25]
    rfl

/-- After point n the count block holds the counts of tiles 0 … n. -/
theorem count_inv (c : Dev nD) (g : Fin 64) : ∀ (n : ℕ) (hn : n < cfg2.N),
    ((outsAt2 V c n hn).2 : S64x1.Idx → EReal) (ix2 g 0) = ∑ t ∈ Finset.range (n + 1), cntN V c g t
  | 0, hn => by
    rw [Finset.sum_range_one]
    refine (count_A V c ⟨0, hn⟩ rfl g).trans ?_
    unfold cntN
    rw [dif_pos (by decide : 0 < 25)]
  | n + 1, hn => by
    have h25 : n + 1 < 25 := lt_of_lt_of_eq hn N_2
    have hB : ¬(⟨n + 1, hn⟩ : Fin cfg2.N).val % 25 = 0 := by dsimp only; omega
    rw [Finset.sum_range_succ, ← count_inv c g n (Nat.lt_of_succ_lt hn)]
    refine (count_B V c ⟨n + 1, hn⟩ hB g).trans ?_
    unfold cntN
    rw [dif_pos h25]
    rfl

/-! ## The one write-back: the last point's block is the whole array -/

/-- The last grid point. -/
abbrev tlast : Fin cfg2.N := ⟨24, by rw [show cfg2.N = 25 from N_2]; decide⟩

abbrev pooledFinal (c : Dev nD) : Buf (Elt Ideal) ((c : Thread nD τ).loc main_v62_0) := (outsAt2 V c tlast.val tlast.isLt).1
abbrev countFinal (c : Dev nD) : Buf (Elt Ideal) ((c : Thread nD τ).loc main_v62_1) := (outsAt2 V c tlast.val tlast.isLt).2

theorem flushed5_eq (c : Dev nD) (t : Fin cfg2.N) (hf : (cfg2.win 5).flush t = true) :
    (dat2 V c).flushed 5 t = ((cfg2.win 5).blk t).view.read (Elt Ideal) (pooledFinal V c) := by
  have hN : cfg2.N = 25 := N_2
  have h24 : t.val = 24 := by have := (flush2_5 t).mp hf; have := t.isLt; omega
  obtain rfl : t = tlast := Fin.ext h24
  show (cfg2.win 5).cut (grid2.coords tlast) ((dat2 V c).after 5 tlast) = _
  rw [after2_5]
  have hz' : (fun a => win2_5.index tlast a * main_v62_0.ty.shape.size a) = fun _ => 0 := funext fun a => by fin_cases a <;> decide +kernel
  exact (Memref.read_access_unit_zero (Elt Ideal) main_v62_0 hz' (fun a => by rw [congrFun hz' a]; simp) (pooledFinal V c)).symm

theorem flushed6_eq (c : Dev nD) (t : Fin cfg2.N) (hf : (cfg2.win 6).flush t = true) :
    (dat2 V c).flushed 6 t = ((cfg2.win 6).blk t).view.read (Elt Ideal) (countFinal V c) := by
  have hN : cfg2.N = 25 := N_2
  have h24 : t.val = 24 := by have := (flush2_6 t).mp hf; have := t.isLt; omega
  obtain rfl : t = tlast := Fin.ext h24
  show (cfg2.win 6).cut (grid2.coords tlast) ((dat2 V c).after 6 tlast) = _
  rw [after2_6]
  have hz' : (fun a => win2_6.index tlast a * main_v62_1.ty.shape.size a) = fun _ => 0 := funext fun a => by fin_cases a <;> decide +kernel
  exact (Memref.read_access_unit_zero (Elt Ideal) main_v62_1 hz' (fun a => by rw [congrFun hz' a]; simp) (countFinal V c)).symm

/-- The pooled array ends holding what the last point left. -/
theorem final5 (c : Dev nD) : (dat2 V c).arrAt 5 cfg2.N = pooledFinal V c :=
  (dat2 V c).arrAt_eq_of_cover 5 (pooledFinal V c) (flushed5_eq V c) fun i =>
    ⟨tlast, (flush2_5 tlast).mpr rfl, by
      show i ∈ ((View.whole main_v62_0).slice (win2_5.rect tlast)).set
      rw [View.set_slice_whole, Rect.mem_set_unit]
      intro a
      have h0 : (i 0 : Nat) < 64 := (i 0).isLt
      have h1 : (i 1 : Nat) < 128 := (i 1).isLt
      match a with
      | ⟨0, _⟩ => show win2_5.index tlast 0 * win2_5.size 0 ≤ (i 0 : Nat) ∧ (i 0 : Nat) < win2_5.index tlast 0 * win2_5.size 0 + win2_5.xsize (grid2.coords tlast) 0
                  rw [show win2_5.index tlast 0 * win2_5.size 0 = 0 from by decide +kernel, show win2_5.xsize (grid2.coords tlast) 0 = 64 from by decide +kernel]; omega
      | ⟨1, _⟩ => show win2_5.index tlast 1 * win2_5.size 1 ≤ (i 1 : Nat) ∧ (i 1 : Nat) < win2_5.index tlast 1 * win2_5.size 1 + win2_5.xsize (grid2.coords tlast) 1
                  rw [show win2_5.index tlast 1 * win2_5.size 1 = 0 from by decide +kernel, show win2_5.xsize (grid2.coords tlast) 1 = 128 from by decide +kernel]; omega⟩

/-- The count array ends holding what the last point left. -/
theorem final6 (c : Dev nD) : (dat2 V c).arrAt 6 cfg2.N = countFinal V c :=
  (dat2 V c).arrAt_eq_of_cover 6 (countFinal V c) (flushed6_eq V c) fun i =>
    ⟨tlast, (flush2_6 tlast).mpr rfl, by
      show i ∈ ((View.whole main_v62_1).slice (win2_6.rect tlast)).set
      rw [View.set_slice_whole, Rect.mem_set_unit]
      intro a
      have h0 : (i 0 : Nat) < 64 := (i 0).isLt
      have h1 : (i 1 : Nat) < 1 := (i 1).isLt
      match a with
      | ⟨0, _⟩ => show win2_6.index tlast 0 * win2_6.size 0 ≤ (i 0 : Nat) ∧ (i 0 : Nat) < win2_6.index tlast 0 * win2_6.size 0 + win2_6.xsize (grid2.coords tlast) 0
                  rw [show win2_6.index tlast 0 * win2_6.size 0 = 0 from by decide +kernel, show win2_6.xsize (grid2.coords tlast) 0 = 64 from by decide +kernel]; omega
      | ⟨1, _⟩ => show win2_6.index tlast 1 * win2_6.size 1 ≤ (i 1 : Nat) ∧ (i 1 : Nat) < win2_6.index tlast 1 * win2_6.size 1 + win2_6.xsize (grid2.coords tlast) 1
                  rw [show win2_6.index tlast 1 * win2_6.size 1 = 0 from by decide +kernel, show win2_6.xsize (grid2.coords tlast) 1 = 1 from by decide +kernel]; omega⟩

end Arrays

variable (V : (c : Dev nD) → (b : Ref sig .tc) → Buf (Elt Ideal) ((c : Thread nD τ).loc b))

/-- Region 2 (combine, rectify, pool by graph id): entry (g, d) of the pooled sums after the last grid point. -/
theorem region2_pooled (c : Dev nD) (g : Fin 64) (d : Fin 128) :
    ((dat2 (F := Ideal) V c).arrAt 5 cfg2.N : S64x128.Idx → EReal) (ix2 g d)
      = ∑ n : Fin 50000, Cert.Spec.onehot ((V c main_v4 : S50000x1.Idx → BitVec 32) (ix2 n 0)) g
          * Cert.Spec.comb ((V c main_v61 : S50000x128.Idx → EReal) (ix2 n d)) ((V c main_v47 : S50000x128.Idx → EReal) (ix2 n d))
              ((V c main_v28 : S50000x1.Idx → EReal) (ix2 n 0)) ((V c main_v30 : S1x128.Idx → EReal) (ix2 0 d)) := by
  refine (congrFun (final5 V c) (ix2 g d)).trans ?_
  refine (pooled_inv V c g d tlast.val tlast.isLt).trans ?_
  rw [Finset.sum_range (fun t => tileN V c g d t), Cert.Spec.sum_tiles]
  refine Finset.sum_congr rfl fun t _ => ?_
  unfold tileN
  rw [dif_pos t.isLt]
  rfl

/-- Region 2: entry g of the node counts after the last grid point. -/
theorem region2_count (c : Dev nD) (g : Fin 64) :
    ((dat2 (F := Ideal) V c).arrAt 6 cfg2.N : S64x1.Idx → EReal) (ix2 g 0)
      = ∑ n : Fin 50000, Cert.Spec.onehot ((V c main_v4 : S50000x1.Idx → BitVec 32) (ix2 n 0)) g := by
  refine (congrFun (final6 V c) (ix2 g 0)).trans ?_
  refine (count_inv V c g tlast.val tlast.isLt).trans ?_
  rw [Finset.sum_range (fun t => cntN V c g t), Cert.Spec.sum_tiles]
  refine Finset.sum_congr rfl fun t _ => ?_
  unfold cntN
  rw [dif_pos t.isLt]
  rfl

end Cert.KernelIdeal.KV

end
-- ==== Proof.Region3.lean ====
/- Region 3, the final linear layer on the pooled means: a one-point grid whose five windows are whole arrays.
   The body divides each pooled row by its count floored at one, contracts the 128 features with the weight
   matrix and adds the bias row. Read here: the body's payload at an entry (the contraction re-indexed by its one
   coordinate, the two broadcasts read at an index), each window's block at the one point as its whole array,
   the one write-back as the whole result, and so the result array entry by entry. -/
import proofs.«405578_j67937792688660_2_alg».proof.Proof.Gen.KernelIdeal.Frame
import proofs.«405578_j67937792688660_2_alg».proof.Proof.Spec
import Idealize.ShloMosaic.Lib.Pipeline.Value
import Idealize.ShloMosaic.PureOps.Ideal.Laws

set_option maxRecDepth 16384

noncomputable section

namespace Cert.KernelIdeal.KV

open Idealize.ShloMosaic Idealize.ShloMosaic.TcCoe Idealize.SL.Sem
open Idealize.ShloMosaic.Pipeline (Dat)
open Idealize.ShloMosaic.ValueIdx (ix1 ix2)
open Cert.KernelIdeal Cert.KernelIdeal.Gen
variable (V : (c : Dev nD) → (b : Ref sig .tc) → Buf (Elt Ideal) ((c : Thread nD τ).loc b))

/-! ## The contraction's index maps, axis by axis

The matmul contracts axis 1 of the left operand with axis 0 of the right one: the left index keeps the
result's row and takes the contraction coordinate as its column, the right index takes the contraction
coordinate as its row and keeps the result's column. -/

theorem lhs_final_0 (i : S64x16.Idx) (q : dot_S64x128_S128x16_S64x16_1_0_0_1_n_n.contr.Idx) :
    (dot_S64x128_S128x16_S64x16_1_0_0_1_n_n.lhsIdx i q 0).val = (i 0).val := by
  unfold DotDims.lhsIdx
  rw [dif_neg (show ¬(0 : Fin S64x128.rank) ∈ dot_S64x128_S128x16_S64x16_1_0_0_1_n_n.lhsBatch by decide), dif_pos (show (0 : Fin S64x128.rank) ∈ dot_S64x128_S128x16_S64x16_1_0_0_1_n_n.lhsNonContracting by decide)]
  rfl
theorem lhs_final_1 (i : S64x16.Idx) (q : dot_S64x128_S128x16_S64x16_1_0_0_1_n_n.contr.Idx) :
    (dot_S64x128_S128x16_S64x16_1_0_0_1_n_n.lhsIdx i q 1).val = (q ⟨0, by decide⟩).val :=
  dot_S64x128_S128x16_S64x16_1_0_0_1_n_n.lhsIdx_val_of_single rfl i q
theorem rhs_final_0 (i : S64x16.Idx) (q : dot_S64x128_S128x16_S64x16_1_0_0_1_n_n.contr.Idx) :
    (dot_S64x128_S128x16_S64x16_1_0_0_1_n_n.rhsIdx i q 0).val = (q ⟨0, by decide⟩).val :=
  dot_S64x128_S128x16_S64x16_1_0_0_1_n_n.rhsIdx_val_of_single rfl i q
theorem rhs_final_1 (i : S64x16.Idx) (q : dot_S64x128_S128x16_S64x16_1_0_0_1_n_n.contr.Idx) :
    (dot_S64x128_S128x16_S64x16_1_0_0_1_n_n.rhsIdx i q 1).val = (i 1).val := by
  unfold DotDims.rhsIdx
  rw [dif_neg (show ¬(1 : Fin S128x16.rank) ∈ dot_S64x128_S128x16_S64x16_1_0_0_1_n_n.rhsBatch by decide), dif_pos (show (1 : Fin S128x16.rank) ∈ dot_S64x128_S128x16_S64x16_1_0_0_1_n_n.rhsNonContracting by decide)]
  rfl

/-! ## The body's payload at an entry -/

/-- The count column, floored at one and spread along the 128 features, read at (g, k): the floored count of row g. -/
theorem floored_count_apply (cnt : Vec Ideal S64x1 .f32) (g : Fin 64) (k : Fin 128) :
    broadcastTo S64x128 (maximumf (shapeCast S64x1 cnt shapeCasts_S64x1_S64x1) (broadcast S64x1 (FloatOps.ofBits (F := Ideal) .f32 0x3F800000#32))) broadcasts_S64x1_S64x128 (ix2 g k)
      = max (cnt (ix2 g 0)) (FloatOps.ofBits (F := Ideal) .f32 0x3F800000#32) := by
  refine (broadcastTo_apply _ broadcasts_S64x1_S64x128 (ix2 g k) (ix2 g 0) (fun a => ?_)).trans ?_
  · match a with
    | ⟨0, _⟩ => show g.val = if (64 : Nat) = 1 then 0 else g.val; rw [if_neg (by decide)]
    | ⟨1, _⟩ => show 0 = if (1 : Nat) = 1 then 0 else k.val; rw [if_pos rfl]
  · rw [shapeCast_self]; rfl

/-- The bias row spread down the 64 rows, read at (g, j): the bias of column j. -/
theorem bias_apply (b : Vec Ideal S1x16 .f32) (g : Fin 64) (j : Fin 16) :
    broadcastTo S64x16 (shapeCast S1x16 b shapeCasts_S1x16_S1x16) broadcasts_S1x16_S64x16 (ix2 g j) = b (ix2 0 j) := by
  refine (broadcastTo_apply _ broadcasts_S1x16_S64x16 (ix2 g j) (ix2 0 j) (fun a => ?_)).trans ?_
  · match a with
    | ⟨0, _⟩ => show 0 = if (1 : Nat) = 1 then 0 else g.val; rw [if_pos rfl]
    | ⟨1, _⟩ => show j.val = if (16 : Nat) = 1 then 0 else j.val; rw [if_neg (by decide)]
  · rw [shapeCast_self]

/-- Entry (g, j) of what the body stores: the pooled row g divided entrywise by its floored count, contracted
    with column j of the weights over the 128 features, plus the bias of column j. The two narrowings before
    the contraction are the identity on extended reals, the accumulator is the zero constant, and the kernel's
    quotient and the host's are the same function there. -/
theorem final_pay_apply (p : Vec Ideal S64x128 .f32) (cnt : Vec Ideal S64x1 .f32) (w : Vec Ideal S128x16 .f32) (b : Vec Ideal S1x16 .f32) (g : Fin 64) (j : Fin 16) :
    k3_pay1 (F := Ideal) p cnt w b (ix2 g j) = (∑ k : Fin 128, Cert.Spec.meanDiv (p (ix2 g k)) (cnt (ix2 g 0)) * w (ix2 k j)) + b (ix2 0 j) := by
  unfold k3_pay1
  refine (ValueIdx.addf_apply _ _ _).trans ?_
  refine congrArg₂ (· + ·) ?_ (bias_apply b g j)
  refine (Ideal.matmul_constant_zero_apply dot_S64x128_S128x16_S64x16_1_0_0_1_n_n none _ _ (ix2 g j)).trans ?_
  rw [← Equiv.sum_comp (ValueIdx.contrEquiv1 dot_S64x128_S128x16_S64x16_1_0_0_1_n_n 128 rfl rfl).symm]
  refine Finset.sum_congr rfl fun k _ => ?_
  have hk := ValueIdx.contrEquiv1_symm_val dot_S64x128_S128x16_S64x16_1_0_0_1_n_n 128 rfl rfl k
  have el : dot_S64x128_S128x16_S64x16_1_0_0_1_n_n.lhsIdx (ix2 g j) ((ValueIdx.contrEquiv1 dot_S64x128_S128x16_S64x16_1_0_0_1_n_n 128 rfl rfl).symm k) = ix2 g k := funext fun a => Fin.ext (by
    match a with
    | ⟨0, _⟩ => exact lhs_final_0 _ _
    | ⟨1, _⟩ => exact (lhs_final_1 _ _).trans hk)
  have er : dot_S64x128_S128x16_S64x16_1_0_0_1_n_n.rhsIdx (ix2 g j) ((ValueIdx.contrEquiv1 dot_S64x128_S128x16_S64x16_1_0_0_1_n_n 128 rfl rfl).symm k) = ix2 k j := funext fun a => Fin.ext (by
    match a with
    | ⟨0, _⟩ => exact (rhs_final_0 _ _).trans hk
    | ⟨1, _⟩ => exact rhs_final_1 _ _)
  rw [el, er]
  refine congrArg₂ (· * ·) ?_ rfl
  show Ideal.div (shapeCast S64x128 p shapeCasts_S64x128_S64x128 (ix2 g k)) _ = Ideal.div (p (ix2 g k)) (max (cnt (ix2 g 0)) (FloatOps.ofBits (F := Ideal) .f32 0x3F800000#32))
  rw [shapeCast_self]
  exact congrArg (Ideal.div (p (ix2 g k))) (floored_count_apply cnt g k)

/-! ## What the body leaves, and the windows' blocks at the grid's one point -/

/-- The offsets of every access: zero on both axes. -/
theorem final_hz : (![0, 0] : Fin 2 → Nat) = fun _ => 0 := funext fun a => by fin_cases a <;> rfl

/-- The one store covers the output buffer and every load reads a whole input buffer, so what the body leaves
    in the output buffer is the payload of the four input buffers. -/
theorem final_out_eq (x0 : Vec Ideal S64x128 .f32) (x1 : Vec Ideal S64x1 .f32) (x2 : Vec Ideal S128x16 .f32) (x3 : Vec Ideal S1x16 .f32) :
    out3_4 (F := Ideal) x0 x1 x2 x3 = k3_pay1 (F := Ideal) x0 x1 x2 x3 := by
  unfold out3_4
  rw [View.canon_unit_zero final_hz]
  simp only [View.ld_unit_zero (S := S64x128) final_hz, View.ld_unit_zero (S := S64x1) final_hz, View.ld_unit_zero (S := S128x16) final_hz, View.ld_unit_zero (S := S1x16) final_hz]

/-- Input window 0's block at the grid's one point is the whole array of pooled sums. -/
theorem final_blk0 (c : Dev nD) : iblk3 (F := Ideal) V c 0 t3_0 = (V c main_v62_0 : Vec Ideal S64x128 .f32) := by
  have hz' : (fun a => win3_0.index t3_0 a * main_v62_0.ty.shape.size a) = fun _ => 0 := funext fun a => by fin_cases a <;> decide
  exact Memref.read_access_unit_zero (Elt Ideal) main_v62_0 hz' (fun a => by rw [congrFun hz' a]; simp) (V c main_v62_0)

/-- Input window 1's block at the grid's one point is the whole count column. -/
theorem final_blk1 (c : Dev nD) : iblk3 (F := Ideal) V c 1 t3_0 = (V c main_v62_1 : Vec Ideal S64x1 .f32) := by
  have hz' : (fun a => win3_1.index t3_0 a * main_v62_1.ty.shape.size a) = fun _ => 0 := funext fun a => by fin_cases a <;> decide
  exact Memref.read_access_unit_zero (Elt Ideal) main_v62_1 hz' (fun a => by rw [congrFun hz' a]; simp) (V c main_v62_1)

/-- Input window 2's block at the grid's one point is the whole weight matrix. -/
theorem final_blk2 (c : Dev nD) : iblk3 (F := Ideal) V c 2 t3_0 = (V c main_arg7 : Vec Ideal S128x16 .f32) := by
  have hz' : (fun a => win3_2.index t3_0 a * main_arg7.ty.shape.size a) = fun _ => 0 := funext fun a => by fin_cases a <;> decide
  exact Memref.read_access_unit_zero (Elt Ideal) main_arg7 hz' (fun a => by rw [congrFun hz' a]; simp) (V c main_arg7)

/-- Input window 3's block at the grid's one point is the whole bias row. -/
theorem final_blk3 (c : Dev nD) : iblk3 (F := Ideal) V c 3 t3_0 = (V c main_v31 : Vec Ideal S1x16 .f32) := by
  have hz' : (fun a => win3_3.index t3_0 a * main_v31.ty.shape.size a) = fun _ => 0 := funext fun a => by fin_cases a <;> decide
  exact Memref.read_access_unit_zero (Elt Ideal) main_v31 hz' (fun a => by rw [congrFun hz' a]; simp) (V c main_v31)

/-- The result array as one function of the four arrays the region reads: the body's payload of the whole arrays. -/
abbrev finalArr (c : Dev nD) : Vec Ideal S64x16 .f32 :=
  k3_pay1 (F := Ideal) (V c main_v62_0 : Vec Ideal S64x128 .f32) (V c main_v62_1 : Vec Ideal S64x1 .f32) (V c main_arg7 : Vec Ideal S128x16 .f32) (V c main_v31 : Vec Ideal S1x16 .f32)

/-- What the grid's one point writes back is the whole of `finalArr`: the output block at block index (0, 0) is the array. -/
theorem final_flushed_eq (c : Dev nD) (t : Fin cfg3.N) (hf : (cfg3.win 4).flush t = true) :
    (dat3 (F := Ideal) V c).flushed 4 t = ((cfg3.win 4).blk t).view.read (Elt Ideal) (finalArr V c) := by
  obtain rfl : t = t3_0 := fin_N3 t
  show (cfg3.win 4).cut (grid3.coords t3_0) ((dat3 (F := Ideal) V c).after 4 t3_0) = _
  rw [after3_4, final_blk0, final_blk1, final_blk2, final_blk3, final_out_eq]
  have hz' : (fun a => win3_4.index t3_0 a * main_v63.ty.shape.size a) = fun _ => 0 := funext fun a => by fin_cases a <;> decide
  exact (Memref.read_access_unit_zero (Elt Ideal) main_v63 hz' (fun a => by rw [congrFun hz' a]; simp) (finalArr V c)).symm

/-- So the result array ends holding `finalArr`: the one point's block covers it. -/
theorem final_arr (c : Dev nD) : (dat3 (F := Ideal) V c).arrAt 4 cfg3.N = finalArr V c :=
  (dat3 (F := Ideal) V c).arrAt_eq_of_cover 4 (finalArr V c) (final_flushed_eq V c) fun i =>
    ⟨t3_0, flush3_4 t3_0, by
      show i ∈ ((View.whole main_v63).slice (win3_4.rect t3_0)).set
      rw [View.set_slice_whole, Rect.mem_set_unit]
      intro a
      have h0 : (i 0 : Nat) < 64 := (i 0).isLt
      have h1 : (i 1 : Nat) < 16 := (i 1).isLt
      match a with
      | ⟨0, _⟩ => show win3_4.index t3_0 0 * win3_4.size 0 ≤ (i 0 : Nat) ∧ (i 0 : Nat) < win3_4.index t3_0 0 * win3_4.size 0 + win3_4.xsize (grid3.coords t3_0) 0
                  rw [show win3_4.index t3_0 0 * win3_4.size 0 = 0 from by decide +kernel, show win3_4.xsize (grid3.coords t3_0) 0 = 64 from by decide +kernel]; omega
      | ⟨1, _⟩ => show win3_4.index t3_0 1 * win3_4.size 1 ≤ (i 1 : Nat) ∧ (i 1 : Nat) < win3_4.index t3_0 1 * win3_4.size 1 + win3_4.xsize (grid3.coords t3_0) 1
                  rw [show win3_4.index t3_0 1 * win3_4.size 1 = 0 from by decide +kernel, show win3_4.xsize (grid3.coords t3_0) 1 = 16 from by decide +kernel]; omega⟩

/-- Region 3 (mean, final linear layer): entry (g, j) of the result. -/
theorem region3 (c : Dev nD) (g : Fin 64) (j : Fin 16) :
    ((dat3 (F := Ideal) V c).arrAt 4 cfg3.N : S64x16.Idx → EReal) (ix2 g j)
      = (∑ k : Fin 128, Cert.Spec.meanDiv ((V c main_v62_0 : S64x128.Idx → EReal) (ix2 g k)) ((V c main_v62_1 : S64x1.Idx → EReal) (ix2 g 0))
            * (V c main_arg7 : S128x16.Idx → EReal) (ix2 k j))
        + (V c main_v31 : S1x16.Idx → EReal) (ix2 0 j) :=
  (congrFun (final_arr V c) (ix2 g j)).trans
    (final_pay_apply (V c main_v62_0 : Vec Ideal S64x128 .f32) (V c main_v62_1 : Vec Ideal S64x1 .f32) (V c main_arg7 : Vec Ideal S128x16 .f32) (V c main_v31 : Vec Ideal S1x16 .f32) g j)

end Cert.KernelIdeal.KV

end
-- ==== Proof.HostA.lean ====
import proofs.«405578_j67937792688660_2_alg».proof.Proof.Args
import proofs.«405578_j67937792688660_2_alg».proof.Proof.Gen.ReferenceIdeal.Read

set_option maxRecDepth 16384

noncomputable section

namespace Cert.KernelIdeal.KV

open Idealize.ShloMosaic Idealize.ShloMosaic.TcCoe Idealize.SL.Sem
open Idealize.ShloMosaic.Pipeline (Dat)
open Idealize.ShloMosaic.ValueIdx (ix1 ix2)
open Cert.KernelIdeal Cert.KernelIdeal.Gen
variable (m : (ℓ : Loc nD τ sig) → Buf (Elt Ideal) ℓ) (ρ : Dev nD → PrngReg)

/-! ## Walking a buffer back through a stretch of host operations -/

/-- A buffer the first stretch of host operations does not write holds what it held at launch. -/
private theorem W1_keep (c : Dev nD) (b : Ref sig .tc)
    (hb : ∀ op ∈ (hostOps0 : List (HloOp τ sig (Elt Ideal))), Proc.devRef .tc b ∉ op.writes) :
    W1 m ρ c (Proc.devRef .tc b) = m ((c.tc : Thread nD τ).loc b) :=
  (StableHlo.after_of_forall_not_mem (b := Proc.devRef .tc b) _ _ hb).trans rfl

/-- A buffer the second stretch of host operations does not write holds what region 0 left there. -/
private theorem W3_keep (c : Dev nD) (b : Ref sig .tc)
    (hb : ∀ op ∈ (hostOps1 : List (HloOp τ sig (Elt Ideal))), Proc.devRef .tc b ∉ op.writes) :
    W3 m ρ c (Proc.devRef .tc b) = W2 m ρ c (Proc.devRef .tc b) :=
  StableHlo.after_of_forall_not_mem (b := Proc.devRef .tc b) _ _ hb

/-! ## What region 0 finds (after the first stretch of host operations) -/

theorem V1_arg0 (c : Dev nD) : V1 m ρ c main_arg0 = m ((c.tc : Thread nD τ).loc main_arg0) :=
  W1_keep m ρ c main_arg0 (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V1_arg3 (c : Dev nD) : V1 m ρ c main_arg3 = m ((c.tc : Thread nD τ).loc main_arg3) :=
  W1_keep m ρ c main_arg3 (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## What the first stretch leaves in the buffers it writes

Each is the composition of the operations that produce it, applied to the arguments at launch: the same
composition the reference's stages are, over equal shape and dimension constants. -/

/-- The source node of each edge. -/
private theorem W1_v1 (c : Dev nD) :
    (W1 m ρ c (Proc.devRef .tc main_v1) : S600000.Idx → BitVec 32) = Cert.ReferenceIdeal.Read.val_main_v1 (F := Ideal) (A1 m c) := by
  show StableHlo.after hostOps0 (W0 m ρ c) (Proc.devRef .tc main_v1) = _
  after_results
  rfl

/-- The destination node of each edge. -/
private theorem W1_v3 (c : Dev nD) :
    (W1 m ρ c (Proc.devRef .tc main_v3) : S600000.Idx → BitVec 32) = Cert.ReferenceIdeal.Read.val_main_v3 (F := Ideal) (A1 m c) := by
  show StableHlo.after hostOps0 (W0 m ρ c) (Proc.devRef .tc main_v3) = _
  after_results
  rfl

set_option maxHeartbeats 1000000 in
/-- The weight of each edge: the product of the inverse root degrees of its two ends. -/
private theorem W1_v26 (c : Dev nD) :
    (W1 m ρ c (Proc.devRef .tc main_v26) : S600000.Idx → EReal) = Cert.ReferenceIdeal.Read.val_main_v26 (F := Ideal) (A1 m c) := by
  show StableHlo.after hostOps0 (W0 m ρ c) (Proc.devRef .tc main_v26) = _
  after_results_simp
  rfl

/-- The squared inverse root degrees, reshaped to a column. -/
private theorem W1_v28 (c : Dev nD) :
    (W1 m ρ c (Proc.devRef .tc main_v28) : S50000x1.Idx → EReal)
      = shapeCast S50000x1 (mulf (F := Ideal) (s := S50000) (φ := .f32) (Cert.ReferenceIdeal.Read.val_main_v11 (F := Ideal) (A1 m c)) (Cert.ReferenceIdeal.Read.val_main_v11 (F := Ideal) (A1 m c))) shapeCasts_S50000_S50000x1 := by
  show StableHlo.after hostOps0 (W0 m ρ c) (Proc.devRef .tc main_v28) = _
  after_results
  rfl

/-- The first bias, reshaped to a row. -/
private theorem W1_v29 (c : Dev nD) :
    (W1 m ρ c (Proc.devRef .tc main_v29) : S1x128.Idx → EReal) = shapeCast S1x128 (A4 m c) shapeCasts_S128_S1x128 := by
  show StableHlo.after hostOps0 (W0 m ρ c) (Proc.devRef .tc main_v29) = _
  after_results
  rfl

/-! Region 0 writes none of these, so they are still there at its exit. -/

private theorem W2_v1 (c : Dev nD) :
    W2 m ρ c (Proc.devRef .tc main_v1) = Cert.ReferenceIdeal.Read.val_main_v1 (F := Ideal) (A1 m c) :=
  (W2_of_ne m ρ c main_v1 (by decide)).trans (W1_v1 m ρ c)
private theorem W2_v3 (c : Dev nD) :
    W2 m ρ c (Proc.devRef .tc main_v3) = Cert.ReferenceIdeal.Read.val_main_v3 (F := Ideal) (A1 m c) :=
  (W2_of_ne m ρ c main_v3 (by decide)).trans (W1_v3 m ρ c)
private theorem W2_v26 (c : Dev nD) :
    W2 m ρ c (Proc.devRef .tc main_v26) = Cert.ReferenceIdeal.Read.val_main_v26 (F := Ideal) (A1 m c) :=
  (W2_of_ne m ρ c main_v26 (by decide)).trans (W1_v26 m ρ c)

/-! ## What region 1 finds (after region 0 and the second stretch of host operations) -/

/-- The first layer's product is still where region 0 left it. -/
theorem V3_v32 (c : Dev nD) : V3 m ρ c main_v32 = (dat0 (F := Ideal) (V1 m ρ) c).arrAt 2 cfg0.N :=
  (W3_keep m ρ c main_v32 (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_arr m ρ c 2)
set_option maxHeartbeats 1000000 in
/-- The neighbour aggregation of the first layer's product: the same gather, scaling and scatter-add the reference applies. -/
theorem V3_v46 (c : Dev nD)
    (hh1 : (dat0 (F := Ideal) (V1 m ρ) c).arrAt 2 cfg0.N = Cert.ReferenceIdeal.Read.val_main_v4 (F := Ideal) (A0 m c) (A3 m c)) :
    V3 m ρ c main_v46 = Cert.ReferenceIdeal.Read.val_main_v39 (F := Ideal) (A0 m c) (A1 m c) (A3 m c) := by
  have e32 : W2 m ρ c (Proc.devRef .tc main_v32) = Cert.ReferenceIdeal.Read.val_main_v4 (F := Ideal) (A0 m c) (A3 m c) :=
    (W2_arr m ρ c 2).trans hh1
  show StableHlo.after hostOps1 (W2 m ρ c) (Proc.devRef .tc main_v46) = _
  after_results_simp
  -- the four buffers the stretch reads from before it, each at its value
  rw [e32, W2_v1, W2_v3, W2_v26]
  -- at the ideal reals widening a float is the identity, so both sides are one composition
  rfl
/-- The squared inverse root degree of node p, as a column. -/
theorem V3_v28 (c : Dev nD) (p : Fin 50000) :
    (V3 m ρ c main_v28 : S50000x1.Idx → EReal) (ix2 p 0)
      = FloatOps.mulf (F := Ideal) (φ := .f32) (Cert.ReferenceIdeal.Read.val_main_v11 (F := Ideal) (A1 m c) (ix1 p)) (Cert.ReferenceIdeal.Read.val_main_v11 (F := Ideal) (A1 m c) (ix1 p)) := by
  have e : (V3 m ρ c main_v28 : S50000x1.Idx → EReal)
      = shapeCast S50000x1 (mulf (F := Ideal) (s := S50000) (φ := .f32) (Cert.ReferenceIdeal.Read.val_main_v11 (F := Ideal) (A1 m c)) (Cert.ReferenceIdeal.Read.val_main_v11 (F := Ideal) (A1 m c))) shapeCasts_S50000_S50000x1 :=
    ((W3_keep m ρ c main_v28 (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_of_ne m ρ c main_v28 (by decide))).trans (W1_v28 m ρ c)
  rw [e]
  -- row p of a one-column array is entry p of the vector it reshapes
  exact shapeCast_apply _ shapeCasts_S50000_S50000x1 (ix2 p 0) (ix1 p)
    (by rewrite [Shape.rowMajor_val_one, Shape.rowMajor_val_two]; show p.val = p.val * 1 + 0; omega)
/-- The first bias as a row. -/
theorem V3_v29 (c : Dev nD) (k : Fin 128) : (V3 m ρ c main_v29 : S1x128.Idx → EReal) (ix2 0 k) = A4 m c (ix1 k) := by
  have e : (V3 m ρ c main_v29 : S1x128.Idx → EReal) = shapeCast S1x128 (A4 m c) shapeCasts_S128_S1x128 :=
    ((W3_keep m ρ c main_v29 (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_of_ne m ρ c main_v29 (by decide))).trans (W1_v29 m ρ c)
  rw [e]
  -- column k of a one-row array is entry k of the vector it reshapes
  exact shapeCast_apply _ shapeCasts_S128_S1x128 (ix2 0 k) (ix1 k)
    (by rewrite [Shape.rowMajor_val_one, Shape.rowMajor_val_two]; show k.val = 0 * 128 + k.val; omega)
theorem V3_arg5 (c : Dev nD) : V3 m ρ c main_arg5 = m ((c.tc : Thread nD τ).loc main_arg5) :=
  ((W3_keep m ρ c main_arg5 (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_of_ne m ρ c main_arg5 (by decide))).trans
    (W1_keep m ρ c main_arg5 (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

end Cert.KernelIdeal.KV

end
-- ==== Proof.HostB.lean ====
import proofs.«405578_j67937792688660_2_alg».proof.Proof.Args
import proofs.«405578_j67937792688660_2_alg».proof.Proof.Gen.ReferenceIdeal.Read

set_option maxRecDepth 16384

noncomputable section

namespace Cert.KernelIdeal.KV

open Idealize.ShloMosaic Idealize.ShloMosaic.TcCoe Idealize.SL.Sem
open Idealize.ShloMosaic.Pipeline (Dat)
open Idealize.ShloMosaic.ValueIdx (ix1 ix2)
open Cert.KernelIdeal Cert.KernelIdeal.Gen
variable (m : (ℓ : Loc nD τ sig) → Buf (Elt Ideal) ℓ) (ρ : Dev nD → PrngReg)

/-! ## Preliminaries

A buffer that no operation of a stretch of host operations writes keeps its contents through the stretch; a region
leaves every buffer that is none of its arrays, and each of its input arrays, as it found them. A buffer written by
the first stretch is then read off that stretch's operations, and a reshape is read at an index by the row-major
position. -/

/-- A buffer that no operation of a stretch of host operations writes keeps its contents through the stretch. -/
local macro "host_untouched" : tactic => `(tactic| (
  refine StableHlo.after_of_forall_not_mem _ _ (List.forall_iff_forall_mem.mp ?_)
  simp only [hostOps0, hostOps1, hostOps2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ### Walking back to the end of the first stretch of host operations -/

private theorem W5_v28_back (c : Dev nD) :
    W5 m ρ c (Proc.devRef .tc main_v28) = W1 m ρ c (Proc.devRef .tc main_v28) :=
  calc W5 m ρ c (Proc.devRef .tc main_v28)
    _ = W4 m ρ c (Proc.devRef .tc main_v28) := by host_untouched
    _ = W3 m ρ c (Proc.devRef .tc main_v28) :=
        (W4_arr m ρ c 2).trans (((dat1 (V3 m ρ) c).arrAt_in 2 rfl _).trans (A_eq1 (V3 m ρ) c 2))
    _ = W2 m ρ c (Proc.devRef .tc main_v28) := by host_untouched
    _ = W1 m ρ c (Proc.devRef .tc main_v28) := W2_of_ne m ρ c main_v28 (by decide)

private theorem W5_v30_back (c : Dev nD) :
    W5 m ρ c (Proc.devRef .tc main_v30) = W1 m ρ c (Proc.devRef .tc main_v30) :=
  calc W5 m ρ c (Proc.devRef .tc main_v30)
    _ = W4 m ρ c (Proc.devRef .tc main_v30) := by host_untouched
    _ = W3 m ρ c (Proc.devRef .tc main_v30) := W4_of_ne m ρ c main_v30 (by decide)
    _ = W2 m ρ c (Proc.devRef .tc main_v30) := by host_untouched
    _ = W1 m ρ c (Proc.devRef .tc main_v30) := W2_of_ne m ρ c main_v30 (by decide)

private theorem W5_v4_back (c : Dev nD) :
    W5 m ρ c (Proc.devRef .tc main_v4) = W1 m ρ c (Proc.devRef .tc main_v4) :=
  calc W5 m ρ c (Proc.devRef .tc main_v4)
    _ = W4 m ρ c (Proc.devRef .tc main_v4) := by host_untouched
    _ = W3 m ρ c (Proc.devRef .tc main_v4) := W4_of_ne m ρ c main_v4 (by decide)
    _ = W2 m ρ c (Proc.devRef .tc main_v4) := by host_untouched
    _ = W1 m ρ c (Proc.devRef .tc main_v4) := W2_of_ne m ρ c main_v4 (by decide)

private theorem W6_v31_back (c : Dev nD) :
    W6 m ρ c (Proc.devRef .tc main_v31) = W1 m ρ c (Proc.devRef .tc main_v31) :=
  calc W6 m ρ c (Proc.devRef .tc main_v31)
    _ = W5 m ρ c (Proc.devRef .tc main_v31) := W6_of_ne m ρ c main_v31 (by decide)
    _ = W4 m ρ c (Proc.devRef .tc main_v31) := by host_untouched
    _ = W3 m ρ c (Proc.devRef .tc main_v31) := W4_of_ne m ρ c main_v31 (by decide)
    _ = W2 m ρ c (Proc.devRef .tc main_v31) := by host_untouched
    _ = W1 m ρ c (Proc.devRef .tc main_v31) := W2_of_ne m ρ c main_v31 (by decide)

private theorem W4_v1_back (c : Dev nD) :
    W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := by host_untouched
    _ = W1 m ρ c (Proc.devRef .tc main_v1) := W2_of_ne m ρ c main_v1 (by decide)

private theorem W4_v3_back (c : Dev nD) :
    W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := by host_untouched
    _ = W1 m ρ c (Proc.devRef .tc main_v3) := W2_of_ne m ρ c main_v3 (by decide)

private theorem W4_v26_back (c : Dev nD) :
    W4 m ρ c (Proc.devRef .tc main_v26) = W1 m ρ c (Proc.devRef .tc main_v26) :=
  calc W4 m ρ c (Proc.devRef .tc main_v26)
    _ = W3 m ρ c (Proc.devRef .tc main_v26) := W4_of_ne m ρ c main_v26 (by decide)
    _ = W2 m ρ c (Proc.devRef .tc main_v26) := by host_untouched
    _ = W1 m ρ c (Proc.devRef .tc main_v26) := W2_of_ne m ρ c main_v26 (by decide)

/-! ### What the first stretch of host operations wrote -/

/-- The squared inverse root degrees, as a column. -/
private theorem W1_v28 (c : Dev nD) :
    (W1 m ρ c (Proc.devRef .tc main_v28) : S50000x1.Idx → EReal)
      = shapeCast S50000x1 (mulf (F := Ideal) (s := S50000) (φ := .f32)
          (Cert.ReferenceIdeal.Read.val_main_v11 (F := Ideal) (A1 m c))
          (Cert.ReferenceIdeal.Read.val_main_v11 (F := Ideal) (A1 m c))) shapeCasts_S50000_S50000x1 := by
  show StableHlo.after hostOps0 (W0 m ρ c) (Proc.devRef .tc main_v28) = _
  after_results_simp
  rfl

private theorem W1_v30 (c : Dev nD) :
    (W1 m ρ c (Proc.devRef .tc main_v30) : S1x128.Idx → EReal) = shapeCast S1x128 (A6 m c) shapeCasts_S128_S1x128 := by
  show StableHlo.after hostOps0 (W0 m ρ c) (Proc.devRef .tc main_v30) = _
  after_results_simp
  rfl

private theorem W1_v4 (c : Dev nD) :
    (W1 m ρ c (Proc.devRef .tc main_v4) : S50000x1.Idx → BitVec 32) = shapeCast S50000x1 (A2 m c) shapeCasts_S50000_S50000x1 := by
  show StableHlo.after hostOps0 (W0 m ρ c) (Proc.devRef .tc main_v4) = _
  after_results_simp
  rfl

private theorem W1_v31 (c : Dev nD) :
    (W1 m ρ c (Proc.devRef .tc main_v31) : S1x16.Idx → EReal) = shapeCast S1x16 (A8 m c) shapeCasts_S16_S1x16 := by
  show StableHlo.after hostOps0 (W0 m ρ c) (Proc.devRef .tc main_v31) = _
  after_results_simp
  rfl

/-- The edges' sources, as the reference reads them. -/
private theorem W1_v1 (c : Dev nD) :
    (W1 m ρ c (Proc.devRef .tc main_v1) : S600000.Idx → BitVec 32)
      = Cert.ReferenceIdeal.Read.val_main_v1 (F := Ideal) (A1 m c) := by
  show StableHlo.after hostOps0 (W0 m ρ c) (Proc.devRef .tc main_v1) = _
  after_results_simp
  rfl

/-- The edges' targets, as the reference reads them. -/
private theorem W1_v3 (c : Dev nD) :
    (W1 m ρ c (Proc.devRef .tc main_v3) : S600000.Idx → BitVec 32)
      = Cert.ReferenceIdeal.Read.val_main_v3 (F := Ideal) (A1 m c) := by
  show StableHlo.after hostOps0 (W0 m ρ c) (Proc.devRef .tc main_v3) = _
  after_results_simp
  rfl

/-- The edges' weights: the product of the two end points' inverse root degrees. -/
private theorem W1_v26 (c : Dev nD) :
    (W1 m ρ c (Proc.devRef .tc main_v26) : S600000.Idx → EReal)
      = Cert.ReferenceIdeal.Read.val_main_v26 (F := Ideal) (A1 m c) := by
  show StableHlo.after hostOps0 (W0 m ρ c) (Proc.devRef .tc main_v26) = _
  after_results_simp
  rfl

/-- The reference computes the edges' weights a second time, by the same operations. -/
private theorem ref_v26_eq_v75 (x1 : S2x600000.Idx → BitVec 32) :
    Cert.ReferenceIdeal.Read.val_main_v26 (F := Ideal) x1 = Cert.ReferenceIdeal.Read.val_main_v75 (F := Ideal) x1 := by
  unfold Cert.ReferenceIdeal.Read.val_main_v26 Cert.ReferenceIdeal.Read.val_main_v75
    Cert.ReferenceIdeal.Read.val_main_v18 Cert.ReferenceIdeal.Read.val_main_v25
    Cert.ReferenceIdeal.Read.val_main_v67 Cert.ReferenceIdeal.Read.val_main_v74
  rfl

/-! ## What region 2 finds (after region 1 and the third stretch of host operations) -/

/-- The second layer's product is still where region 1 left it. -/
theorem V5_v47 (c : Dev nD) : V5 m ρ c main_v47 = (dat1 (F := Ideal) (V3 m ρ) c).arrAt 5 cfg1.N := by
  show W5 m ρ c (Proc.devRef .tc main_v47) = _
  refine Eq.trans ?_ (W4_arr m ρ c 5)
  show StableHlo.after hostOps2 (W4 m ρ c) (Proc.devRef .tc main_v47) = W4 m ρ c (Proc.devRef .tc main_v47)
  host_untouched
/-- The neighbour aggregation of the second layer's product. -/
theorem V5_v61 (c : Dev nD)
    (hh2 : (dat1 (F := Ideal) (V3 m ρ) c).arrAt 5 cfg1.N = Cert.ReferenceIdeal.Read.val_main_v53 (F := Ideal) (A0 m c) (A1 m c) (A3 m c) (A4 m c) (A5 m c)) :
    V5 m ρ c main_v61 = Cert.ReferenceIdeal.Read.val_main_v88 (F := Ideal) (A0 m c) (A1 m c) (A3 m c) (A4 m c) (A5 m c) := by
  have e1 : (W4 m ρ c (Proc.devRef .tc main_v1) : S600000.Idx → BitVec 32)
      = Cert.ReferenceIdeal.Read.val_main_v1 (F := Ideal) (A1 m c) := (W4_v1_back m ρ c).trans (W1_v1 m ρ c)
  have e3 : (W4 m ρ c (Proc.devRef .tc main_v3) : S600000.Idx → BitVec 32)
      = Cert.ReferenceIdeal.Read.val_main_v3 (F := Ideal) (A1 m c) := (W4_v3_back m ρ c).trans (W1_v3 m ρ c)
  have e26 : (W4 m ρ c (Proc.devRef .tc main_v26) : S600000.Idx → EReal)
      = Cert.ReferenceIdeal.Read.val_main_v75 (F := Ideal) (A1 m c) :=
    ((W4_v26_back m ρ c).trans (W1_v26 m ρ c)).trans (ref_v26_eq_v75 (A1 m c))
  have e47 : (W4 m ρ c (Proc.devRef .tc main_v47) : S50000x128.Idx → EReal)
      = Cert.ReferenceIdeal.Read.val_main_v53 (F := Ideal) (A0 m c) (A1 m c) (A3 m c) (A4 m c) (A5 m c) :=
    (W4_arr m ρ c 5).trans hh2
  show StableHlo.after hostOps2 (W4 m ρ c) (Proc.devRef .tc main_v61) = _
  after_results_simp
  rw [e1, e3, e26, e47]
  -- over the extended reals widening a bf16 array to f32 changes nothing
  have hx : ∀ v : FVec Ideal S600000x128 .bf16,
      (extf .f32 v bitsLt_bf16_f32 : FVec Ideal S600000x128 .f32) = v := fun _ => rfl
  rw [hx]
  unfold Cert.ReferenceIdeal.Read.val_main_v88 Cert.ReferenceIdeal.Read.val_main_v87 Cert.ReferenceIdeal.Read.val_main_v86
    Cert.ReferenceIdeal.Read.val_main_cst_19 Cert.ReferenceIdeal.Read.val_main_v85 Cert.ReferenceIdeal.Read.val_main_v84
    Cert.ReferenceIdeal.Read.val_main_v83 Cert.ReferenceIdeal.Read.val_main_v82 Cert.ReferenceIdeal.Read.val_main_v81
    Cert.ReferenceIdeal.Read.val_main_v80 Cert.ReferenceIdeal.Read.val_main_v79 Cert.ReferenceIdeal.Read.val_main_v78
    Cert.ReferenceIdeal.Read.val_main_c_18 Cert.ReferenceIdeal.Read.val_main_v77 Cert.ReferenceIdeal.Read.val_main_v76
    Cert.ReferenceIdeal.Read.val_main_c_17
  rfl
theorem V5_v28 (c : Dev nD) (p : Fin 50000) :
    (V5 m ρ c main_v28 : S50000x1.Idx → EReal) (ix2 p 0)
      = FloatOps.mulf (F := Ideal) (φ := .f32) (Cert.ReferenceIdeal.Read.val_main_v11 (F := Ideal) (A1 m c) (ix1 p)) (Cert.ReferenceIdeal.Read.val_main_v11 (F := Ideal) (A1 m c) (ix1 p)) := by
  have e := (W5_v28_back m ρ c).trans (W1_v28 m ρ c)
  refine (congrFun e _).trans ?_
  refine (shapeCast_apply _ shapeCasts_S50000_S50000x1 (ix2 p 0) (ix1 p)
    (by rewrite [Shape.rowMajor_val_two, Shape.rowMajor_val_one]; show p.val = p.val * 1 + 0; omega)).trans ?_
  rfl
/-- The second bias as a row. -/
theorem V5_v30 (c : Dev nD) (k : Fin 128) : (V5 m ρ c main_v30 : S1x128.Idx → EReal) (ix2 0 k) = A6 m c (ix1 k) := by
  have e : (V5 m ρ c main_v30 : S1x128.Idx → EReal) = shapeCast S1x128 (A6 m c) shapeCasts_S128_S1x128 :=
    (W5_v30_back m ρ c).trans (W1_v30 m ρ c)
  refine (congrFun e _).trans ?_
  exact shapeCast_apply (A6 m c) shapeCasts_S128_S1x128 (ix2 0 k) (ix1 k)
    (by rewrite [Shape.rowMajor_val_two, Shape.rowMajor_val_one]; show k.val = 0 * 128 + k.val; omega)
/-- The graph ids as a column. -/
theorem V5_v4 (c : Dev nD) (n : Fin 50000) : (V5 m ρ c main_v4 : S50000x1.Idx → BitVec 32) (ix2 n 0) = A2 m c (ix1 n) := by
  have e : (V5 m ρ c main_v4 : S50000x1.Idx → BitVec 32) = shapeCast S50000x1 (A2 m c) shapeCasts_S50000_S50000x1 :=
    (W5_v4_back m ρ c).trans (W1_v4 m ρ c)
  refine (congrFun e _).trans ?_
  exact shapeCast_apply (A2 m c) shapeCasts_S50000_S50000x1 (ix2 n 0) (ix1 n)
    (by rewrite [Shape.rowMajor_val_two, Shape.rowMajor_val_one]; show n.val = n.val * 1 + 0; omega)

/-! ## What region 3 finds (right after region 2) -/

theorem V6_v62_0 (c : Dev nD) : V6 m ρ c main_v62_0 = (dat2 (F := Ideal) (V5 m ρ) c).arrAt 5 cfg2.N :=
  W6_arr m ρ c 5
theorem V6_v62_1 (c : Dev nD) : V6 m ρ c main_v62_1 = (dat2 (F := Ideal) (V5 m ρ) c).arrAt 6 cfg2.N :=
  W6_arr m ρ c 6
theorem V6_arg7 (c : Dev nD) : V6 m ρ c main_arg7 = m ((c.tc : Thread nD τ).loc main_arg7) :=
  (((W7_arr m ρ c 2).trans (((dat3 (V6 m ρ) c).arrAt_in 2 rfl _).trans (A_eq3 (V6 m ρ) c 2))).symm).trans
    (W7_main_arg7 m ρ c)
/-- The last bias as a row. -/
theorem V6_v31 (c : Dev nD) (j : Fin 16) : (V6 m ρ c main_v31 : S1x16.Idx → EReal) (ix2 0 j) = A8 m c (ix1 j) := by
  have e : (V6 m ρ c main_v31 : S1x16.Idx → EReal) = shapeCast S1x16 (A8 m c) shapeCasts_S16_S1x16 :=
    (W6_v31_back m ρ c).trans (W1_v31 m ρ c)
  refine (congrFun e _).trans ?_
  exact shapeCast_apply (A8 m c) shapeCasts_S16_S1x16 (ix2 0 j) (ix1 j)
    (by rewrite [Shape.rowMajor_val_two, Shape.rowMajor_val_one]; show j.val = 0 * 16 + j.val; omega)

/-! ## The result buffer at the end -/

theorem W7_v63 (c : Dev nD) : W7 m ρ c (Proc.devRef .tc main_v63) = (dat3 (F := Ideal) (V6 m ρ) c).arrAt 4 cfg3.N :=
  W7_arr m ρ c 4

end Cert.KernelIdeal.KV

end
-- ==== Proof.RefRead.lean ====
import proofs.«405578_j67937792688660_2_alg».proof.Proof.Gen.ReferenceIdeal.Read
import proofs.«405578_j67937792688660_2_alg».proof.Proof.Spec

set_option maxRecDepth 16384

noncomputable section

namespace Cert.ReferenceIdeal.RV

open Idealize.ShloMosaic Idealize.ShloMosaic.TcCoe Idealize.SL.Sem
open Idealize.ShloMosaic.Pipeline (Dat)
open Idealize.ShloMosaic.ValueIdx (ix1 ix2)
open Cert.ReferenceIdeal Cert.ReferenceIdeal.Read
variable (x0 : (⟨S50000x128, .f32⟩ : BufTy).Contents (Elt Ideal)) (x1 : (⟨S2x600000, .i32⟩ : BufTy).Contents (Elt Ideal))
  (x2 : (⟨S50000, .i32⟩ : BufTy).Contents (Elt Ideal)) (x3 : (⟨S128x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S128x16, .f32⟩ : BufTy).Contents (Elt Ideal))
  (x8 : (⟨S16, .f32⟩ : BufTy).Contents (Elt Ideal))

/-! Index equations: each layout stage reads its operand at an index that, at a coordinate pair, is again a
    coordinate pair (or a single coordinate). -/

private theorem lidx53 (p : Fin 50000) (q k : Fin 128) : lidx_main_v53 (ix2 p q) k = ix2 p k :=
  funext fun a => Fin.ext (by match a with | ⟨0, _⟩ => rfl | ⟨1, _⟩ => rfl)
private theorem ridx53 (p : Fin 50000) (q k : Fin 128) : ridx_main_v53 (ix2 p q) k = ix2 k q :=
  funext fun a => Fin.ext (by match a with | ⟨0, _⟩ => rfl | ⟨1, _⟩ => rfl)
private theorem idx42 (p : Fin 50000) (k : Fin 128) : idx_main_v42 (ix2 p k) = ix2 p (0 : Fin 1) :=
  funext fun a => Fin.ext (by match a with | ⟨0, _⟩ => rfl | ⟨1, _⟩ => rfl)
private theorem idx41 (p : Fin 50000) : idx_main_v41 (ix2 p (0 : Fin 1)) = ix1 p :=
  funext fun a => Fin.ext (by match a with | ⟨0, _⟩ => rfl)
private theorem idx46 (p : Fin 50000) (k : Fin 128) : idx_main_v46 (ix2 p k) = ix2 (0 : Fin 1) k :=
  funext fun a => Fin.ext (by match a with | ⟨0, _⟩ => rfl | ⟨1, _⟩ => rfl)
private theorem idx45 (k : Fin 128) : idx_main_v45 (ix2 (0 : Fin 1) k) = ix1 k :=
  funext fun a => Fin.ext (by match a with | ⟨0, _⟩ => rfl)
private theorem idx91 (p : Fin 50000) (k : Fin 128) : idx_main_v91 (ix2 p k) = ix2 p (0 : Fin 1) :=
  funext fun a => Fin.ext (by match a with | ⟨0, _⟩ => rfl | ⟨1, _⟩ => rfl)
private theorem idx90 (p : Fin 50000) : idx_main_v90 (ix2 p (0 : Fin 1)) = ix1 p :=
  funext fun a => Fin.ext (by match a with | ⟨0, _⟩ => rfl)
private theorem idx95 (p : Fin 50000) (k : Fin 128) : idx_main_v95 (ix2 p k) = ix2 (0 : Fin 1) k :=
  funext fun a => Fin.ext (by match a with | ⟨0, _⟩ => rfl | ⟨1, _⟩ => rfl)
private theorem idx94 (k : Fin 128) : idx_main_v94 (ix2 (0 : Fin 1) k) = ix1 k :=
  funext fun a => Fin.ext (by match a with | ⟨0, _⟩ => rfl)
private theorem lidx114 (g : Fin 64) (j : Fin 16) (k : Fin 128) : lidx_main_v114 (ix2 g j) k = ix2 g k :=
  funext fun a => Fin.ext (by match a with | ⟨0, _⟩ => rfl | ⟨1, _⟩ => rfl)
private theorem ridx114 (g : Fin 64) (j : Fin 16) (k : Fin 128) : ridx_main_v114 (ix2 g j) k = ix2 k j :=
  funext fun a => Fin.ext (by match a with | ⟨0, _⟩ => rfl | ⟨1, _⟩ => rfl)
private theorem idx112 (g : Fin 64) (k : Fin 128) : idx_main_v112 (ix2 g k) = ix2 g (0 : Fin 1) :=
  funext fun a => Fin.ext (by match a with | ⟨0, _⟩ => rfl | ⟨1, _⟩ => rfl)
private theorem idx111 (g : Fin 64) : idx_main_v111 (ix2 g (0 : Fin 1)) = ix1 g :=
  funext fun a => Fin.ext (by match a with | ⟨0, _⟩ => rfl)
private theorem idx116 (g : Fin 64) (j : Fin 16) : idx_main_v116 (ix2 g j) = ix2 (0 : Fin 1) j :=
  funext fun a => Fin.ext (by match a with | ⟨0, _⟩ => rfl | ⟨1, _⟩ => rfl)
private theorem idx115 (j : Fin 16) : idx_main_v115 (ix2 (0 : Fin 1) j) = ix1 j :=
  funext fun a => Fin.ext (by match a with | ⟨0, _⟩ => rfl)

/-- The reference computes the inverse root degree twice, from the same operands by the same operations:
    the two stages are one term. -/
private theorem v60_eq_v11 : val_main_v60 (F := Ideal) x1 = val_main_v11 (F := Ideal) x1 := rfl

/-- The second layer's dense product reads, entry by entry, as the sum over the hidden axis of the first layer's
    combined and rectified features times the weights. -/
theorem h2_apply (p : Fin 50000) (q : Fin 128) :
    val_main_v53 (F := Ideal) x0 x1 x3 x4 x5 (ix2 p q)
      = ∑ k : Fin 128, Cert.Spec.comb (val_main_v39 (F := Ideal) x0 x1 x3 (ix2 p k)) (val_main_v4 (F := Ideal) x0 x3 (ix2 p k))
            (FloatOps.mulf (val_main_v11 (F := Ideal) x1 (ix1 p)) (val_main_v11 (F := Ideal) x1 (ix1 p))) (x4 (ix1 k))
          * x5 (ix2 k q) := by
  rw [val_main_v53_apply]
  refine Finset.sum_congr rfl fun k _ => ?_
  rw [lidx53, ridx53, val_main_v52_apply, val_main_v49_apply, val_main_v51_apply, val_main_v47_apply,
    val_main_v44_apply, val_main_v43_apply, val_main_v42_apply, idx42, val_main_v41_apply, idx41,
    val_main_v40_apply, val_main_v46_apply, idx46, val_main_v45_apply, idx45, val_main_v48_apply,
    val_main_cst_8_apply, val_main_v50_apply, val_main_cst_9_apply]
  rfl

/-- The second layer's combined and rectified features, entry by entry. -/
theorem act2_apply (n : Fin 50000) (d : Fin 128) :
    val_main_v101 (F := Ideal) x0 x1 x3 x4 x5 x6 (ix2 n d)
      = Cert.Spec.comb (val_main_v88 (F := Ideal) x0 x1 x3 x4 x5 (ix2 n d)) (val_main_v53 (F := Ideal) x0 x1 x3 x4 x5 (ix2 n d))
          (FloatOps.mulf (val_main_v11 (F := Ideal) x1 (ix1 n)) (val_main_v11 (F := Ideal) x1 (ix1 n))) (x6 (ix1 d)) := by
  rw [val_main_v101_apply, val_main_v98_apply, val_main_v100_apply, val_main_v96_apply,
    val_main_v93_apply, val_main_v92_apply, val_main_v91_apply, idx91, val_main_v90_apply, idx90,
    val_main_v89_apply, v60_eq_v11, val_main_v95_apply, idx95, val_main_v94_apply, idx94, val_main_v97_apply,
    val_main_cst_20_apply, val_main_v99_apply, val_main_cst_21_apply]
  rfl

/-- The result, entry by entry: the mean-pooled features times the last weights, plus the bias. -/
theorem out_apply (g : Fin 64) (j : Fin 16) :
    val_main_v117 (F := Ideal) x0 x1 x2 x3 x4 x5 x6 x7 x8 (ix2 g j)
      = (∑ k : Fin 128, Cert.Spec.meanDiv (val_main_v104 (F := Ideal) x0 x1 x2 x3 x4 x5 x6 (ix2 g k)) (val_main_v108 (F := Ideal) x2 (ix1 g))
            * x7 (ix2 k j))
        + x8 (ix1 j) := by
  rw [val_main_v117_apply, val_main_v114_apply, val_main_v116_apply, idx116, val_main_v115_apply, idx115,
    Ideal.addf_def]
  refine congrArg (fun s => s + x8 (ix1 j)) (Finset.sum_congr rfl fun k _ => ?_)
  rw [lidx114, ridx114, val_main_v113_apply, val_main_v112_apply, idx112, val_main_v111_apply, idx111,
    val_main_v110_apply, val_main_v109_apply, val_main_cst_25_apply]
  rfl

end Cert.ReferenceIdeal.RV

end
-- ==== Proof.RefScatter.lean ====
import proofs.«405578_j67937792688660_2_alg».proof.Proof.Gen.ReferenceIdeal.Read
import proofs.«405578_j67937792688660_2_alg».proof.Proof.Spec
import Idealize.ShloMosaic.Lib.IdealHost

set_option maxRecDepth 16384

noncomputable section

namespace Cert.ReferenceIdeal.RV

open Idealize.ShloMosaic Idealize.ShloMosaic.TcCoe Idealize.SL.Sem
open Idealize.ShloMosaic.Pipeline (Dat)
open Idealize.ShloMosaic.ValueIdx (ix1 ix2)
open Cert.ReferenceIdeal Cert.ReferenceIdeal.Read

variable (x0 : (⟨S50000x128, .f32⟩ : BufTy).Contents (Elt Ideal)) (x1 : (⟨S2x600000, .i32⟩ : BufTy).Contents (Elt Ideal))
  (x2 : (⟨S50000, .i32⟩ : BufTy).Contents (Elt Ideal)) (x3 : (⟨S128x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S128x16, .f32⟩ : BufTy).Contents (Elt Ideal))
  (x8 : (⟨S16, .f32⟩ : BufTy).Contents (Elt Ideal))

/-! ## The two scatter records, coordinate by coordinate -/

/-- A 32-bit word read signed is the natural number `g < 64` exactly when the word is `g`. -/
private theorem toInt_eq_iff (w : BitVec 32) (g : Nat) (hg : g < 64) :
    (0 ≤ w.toInt ∧ w.toInt < 64 ∧ w.toInt.toNat = g) ↔ w = BitVec.ofNat 32 g := by
  rw [BitVec.toInt_eq_toNat_cond, ← BitVec.toNat_inj, BitVec.toNat_ofNat]
  have := w.isLt
  split <;> omega

/-- A rank-2 index is `ix2 a b` exactly when its coordinates are `a` and `b`. -/
private theorem eq_ix2_iff {n0 n1 : Nat} (f : (⟨2, ![n0, n1]⟩ : Shape).Idx) (a : Fin n0) (b : Fin n1) :
    f = ix2 a b ↔ f 0 = a ∧ f 1 = b := by
  constructor
  · rintro rfl; exact ⟨rfl, rfl⟩
  · rintro ⟨rfl, rfl⟩; exact ValueIdx.eq_ix2 f

/-- A rank-1 index is `ix1 a` exactly when its coordinate is `a`. -/
private theorem eq_ix1_iff {n : Nat} (f : (⟨1, ![n]⟩ : Shape).Idx) (a : Fin n) :
    f = ix1 a ↔ f 0 = a := by
  constructor
  · rintro rfl; rfl
  · rintro rfl; exact ValueIdx.eq_ix1 f

/-- Rank-2 scatter: update `(n, d')` reads its start index at row `n` of the index column. -/
private theorem pool_siIdx (a : Fin 50000) (b : Fin 128)
    (c : Fin scatter_S64x128_S50000x1_S50000x128_1_0_0_1.scatterDimsToOperandDims.length) :
    scatter_S64x128_S50000x1_S50000x128_1_0_0_1.siIdx (ix2 a b) c = ix2 a 0 := by
  funext k
  match k with
  | ⟨0, _⟩ => apply Fin.ext; rfl
  | ⟨1, _⟩ =>
    apply Fin.ext
    have := c.isLt
    simp [ScatterDims.siIdx, scatter_S64x128_S50000x1_S50000x128_1_0_0_1] at this ⊢

private theorem pool_start0 (a : Fin 50000) (b : Fin 128) (idx : IVec S50000x1 32) :
    scatter_S64x128_S50000x1_S50000x128_1_0_0_1.start (ix2 a b) idx 0 = (idx (ix2 a 0)).toInt := by
  unfold ScatterDims.start
  rw [dif_pos (by decide), pool_siIdx]

private theorem pool_start1 (j : S50000x128.Idx) (idx : IVec S50000x1 32) :
    scatter_S64x128_S50000x1_S50000x128_1_0_0_1.start j idx 1 = 0 := by
  unfold ScatterDims.start
  rw [dif_neg (by decide)]

private theorem pool_window0 (j : S50000x128.Idx) :
    scatter_S64x128_S50000x1_S50000x128_1_0_0_1.window j 0 = 0 := by
  unfold ScatterDims.window
  rw [dif_neg (by decide)]

private theorem pool_window1 (j : S50000x128.Idx) :
    scatter_S64x128_S50000x1_S50000x128_1_0_0_1.window j 1 = (j 1).val := by
  unfold ScatterDims.window
  rw [dif_pos (by decide)]
  rfl

/-- With `t` the signed start on the graph axis: update `j` lands on `(g, d)` exactly when its feature
    coordinate is `d` and `t` is the natural number `g`. -/
private theorem pool_resultIdx_of (j : S50000x128.Idx) (idx : IVec S50000x1 32) (g : Fin 64) (d : Fin 128) (t : Int)
    (ht : scatter_S64x128_S50000x1_S50000x128_1_0_0_1.start j idx 0 = t) :
    scatter_S64x128_S50000x1_S50000x128_1_0_0_1.resultIdx? j idx = some (ix2 g d)
      ↔ ((j 1).val = d.val ∧ 0 ≤ t ∧ t < 64 ∧ t.toNat = g.val) := by
  have hj := (j 1).isLt
  have hj' : (j 1).val < 128 := hj
  have s1 := pool_start1 j idx
  have w0 := pool_window0 j
  have w1 := pool_window1 j
  unfold ScatterDims.resultIdx?
  split
  · rename_i h
    rw [Option.some.injEq, eq_ix2_iff]
    refine Iff.trans (and_congr Fin.ext_iff Fin.ext_iff) ?_
    have h0 : 0 ≤ t + ((0 : Nat) : Int) ∧ t + ((0 : Nat) : Int) < ((64 : Nat) : Int) := by
      have := h 0; rw [ht, w0] at this; exact this
    show ((scatter_S64x128_S50000x1_S50000x128_1_0_0_1.start j idx 0
            + (scatter_S64x128_S50000x1_S50000x128_1_0_0_1.window j 0 : Int)).toNat = g.val
          ∧ (scatter_S64x128_S50000x1_S50000x128_1_0_0_1.start j idx 1
            + (scatter_S64x128_S50000x1_S50000x128_1_0_0_1.window j 1 : Int)).toNat = d.val) ↔ _
    rw [ht, s1, w0, w1]
    omega
  · rename_i h
    simp only [reduceCtorEq, false_iff]
    rintro ⟨hd, h0, h1, h2⟩
    apply h
    intro k
    match k with
    | ⟨0, _⟩ =>
      show 0 ≤ scatter_S64x128_S50000x1_S50000x128_1_0_0_1.start j idx 0
            + (scatter_S64x128_S50000x1_S50000x128_1_0_0_1.window j 0 : Int)
          ∧ scatter_S64x128_S50000x1_S50000x128_1_0_0_1.start j idx 0
            + (scatter_S64x128_S50000x1_S50000x128_1_0_0_1.window j 0 : Int) < ((64 : Nat) : Int)
      rw [ht, w0]; omega
    | ⟨1, _⟩ =>
      show 0 ≤ scatter_S64x128_S50000x1_S50000x128_1_0_0_1.start j idx 1
            + (scatter_S64x128_S50000x1_S50000x128_1_0_0_1.window j 1 : Int)
          ∧ scatter_S64x128_S50000x1_S50000x128_1_0_0_1.start j idx 1
            + (scatter_S64x128_S50000x1_S50000x128_1_0_0_1.window j 1 : Int) < ((128 : Nat) : Int)
      rw [s1, w1]; omega

/-- The broadcast index column at row `n` is the id of node `n`. -/
private theorem idcol_apply (n : Fin 50000) :
    val_main_v103 (F := Ideal) x2 (ix2 n 0) = x2 (ix1 n) := by
  rw [val_main_v103_apply]
  congr 1
  funext a
  match a with
  | ⟨0, _⟩ => rfl

/-- Update `(n, b)` of the pooled scatter lands on `(g, d)` exactly when `b = d` and node `n`'s id is the word `g`. -/
private theorem pool_lands (n : Fin 50000) (b : Fin 128) (g : Fin 64) (d : Fin 128) :
    scatter_S64x128_S50000x1_S50000x128_1_0_0_1.resultIdx? (ix2 n b) (val_main_v103 (F := Ideal) x2) = some (ix2 g d)
      ↔ (b = d ∧ x2 (ix1 n) = BitVec.ofNat 32 g.val) := by
  rw [pool_resultIdx_of (ix2 n b) _ g d _ (pool_start0 n b _), idcol_apply, toInt_eq_iff _ g.val g.isLt, Fin.ext_iff]

/-- The pooled scatter at `(g, d)`, over any updates `u`: zero plus the updates of row `n`, column `d`, over the
    nodes `n` whose id is `g`. -/
private theorem pool_sum (u : S50000x128.Idx → EReal) (g : Fin 64) (d : Fin 128) :
    (0 : EReal) + ∑ j with scatter_S64x128_S50000x1_S50000x128_1_0_0_1.resultIdx? j (val_main_v103 (F := Ideal) x2)
        = some (ix2 g d), u j
      = ∑ n : Fin 50000, Cert.Spec.onehot (x2 (ix1 n)) g * u (ix2 n d) := by
  rw [zero_add, Finset.sum_filter, ValueIdx.sum_idx2]
  refine Finset.sum_congr rfl (fun n _ => ?_)
  simp only [pool_lands]
  unfold Cert.Spec.onehot
  by_cases hx : x2 (ix1 n) = BitVec.ofNat 32 g.val
  · simp only [hx, and_true, if_true, one_mul, Finset.sum_ite_eq', Finset.mem_univ]
  · simp only [hx, and_false, if_false, zero_mul, Finset.sum_const_zero]

/-- The segment sum over graph ids reads, entry by entry, as the sum over all nodes of the indicator of the node's
    graph id times the node's feature: an update whose id is outside [0, 64) lands nowhere. -/
theorem pooled_apply (g : Fin 64) (d : Fin 128) :
    val_main_v104 (F := Ideal) x0 x1 x2 x3 x4 x5 x6 (ix2 g d)
      = ∑ n : Fin 50000, Cert.Spec.onehot (x2 (ix1 n)) g * val_main_v101 (F := Ideal) x0 x1 x3 x4 x5 x6 (ix2 n d) := by
  unfold val_main_v104
  generalize val_main_v101 (F := Ideal) x0 x1 x3 x4 x5 x6 = u
  unfold Host.scatterAdd
  rw [Ideal.hostScatterAdd_def]
  unfold Ideal.hostScatterAdd
  rw [val_main_v102_apply, val_main_cst_22_apply, Ideal.ofBits_def, Ideal.ofBits_zero_f32]
  exact pool_sum x2 u g d

/-! ## The count scatter -/

/-- Rank-1 scatter: update `n` reads its start index at row `n` of the index column. -/
private theorem cnt_siIdx (a : Fin 50000)
    (c : Fin scatter_S64_S50000x1_S50000_n_0_0_1.scatterDimsToOperandDims.length) :
    scatter_S64_S50000x1_S50000_n_0_0_1.siIdx (ix1 a) c = ix2 a 0 := by
  funext k
  match k with
  | ⟨0, _⟩ => apply Fin.ext; rfl
  | ⟨1, _⟩ =>
    apply Fin.ext
    have := c.isLt
    simp [ScatterDims.siIdx, scatter_S64_S50000x1_S50000_n_0_0_1] at this ⊢

private theorem cnt_start0 (a : Fin 50000) (idx : IVec S50000x1 32) :
    scatter_S64_S50000x1_S50000_n_0_0_1.start (ix1 a) idx 0 = (idx (ix2 a 0)).toInt := by
  unfold ScatterDims.start
  rw [dif_pos (by decide), cnt_siIdx]

private theorem cnt_window0 (j : S50000.Idx) :
    scatter_S64_S50000x1_S50000_n_0_0_1.window j 0 = 0 := by
  unfold ScatterDims.window
  rw [dif_neg (by decide)]

/-- With `t` the signed start: update `j` lands on `g` exactly when `t` is the natural number `g`. -/
private theorem cnt_resultIdx_of (j : S50000.Idx) (idx : IVec S50000x1 32) (g : Fin 64) (t : Int)
    (ht : scatter_S64_S50000x1_S50000_n_0_0_1.start j idx 0 = t) :
    scatter_S64_S50000x1_S50000_n_0_0_1.resultIdx? j idx = some (ix1 g)
      ↔ (0 ≤ t ∧ t < 64 ∧ t.toNat = g.val) := by
  have w0 := cnt_window0 j
  unfold ScatterDims.resultIdx?
  split
  · rename_i h
    rw [Option.some.injEq, eq_ix1_iff]
    refine Iff.trans Fin.ext_iff ?_
    have h0 : 0 ≤ t + ((0 : Nat) : Int) ∧ t + ((0 : Nat) : Int) < ((64 : Nat) : Int) := by
      have := h 0; rw [ht, w0] at this; exact this
    show ((scatter_S64_S50000x1_S50000_n_0_0_1.start j idx 0
            + (scatter_S64_S50000x1_S50000_n_0_0_1.window j 0 : Int)).toNat = g.val) ↔ _
    rw [ht, w0]
    omega
  · rename_i h
    simp only [reduceCtorEq, false_iff]
    rintro ⟨h0, h1, h2⟩
    apply h
    intro k
    match k with
    | ⟨0, _⟩ =>
      show 0 ≤ scatter_S64_S50000x1_S50000_n_0_0_1.start j idx 0
            + (scatter_S64_S50000x1_S50000_n_0_0_1.window j 0 : Int)
          ∧ scatter_S64_S50000x1_S50000_n_0_0_1.start j idx 0
            + (scatter_S64_S50000x1_S50000_n_0_0_1.window j 0 : Int) < ((64 : Nat) : Int)
      rw [ht, w0]; omega

/-- The count scatter's index column at row `n` is the id of node `n`. -/
private theorem idcol'_apply (n : Fin 50000) :
    val_main_v107 (F := Ideal) x2 (ix2 n 0) = x2 (ix1 n) := by
  rw [val_main_v107_apply]
  congr 1
  funext a
  match a with
  | ⟨0, _⟩ => rfl

/-- Update `n` of the count scatter lands on `g` exactly when node `n`'s id is the word `g`. -/
private theorem cnt_lands (n : Fin 50000) (g : Fin 64) :
    scatter_S64_S50000x1_S50000_n_0_0_1.resultIdx? (ix1 n) (val_main_v107 (F := Ideal) x2) = some (ix1 g)
      ↔ x2 (ix1 n) = BitVec.ofNat 32 g.val := by
  rw [cnt_resultIdx_of (ix1 n) _ g _ (cnt_start0 n _), idcol'_apply, toInt_eq_iff _ g.val g.isLt]

/-- A sum over a rank-1 index is the sum over its coordinate. -/
private theorem sum_idx1 {n : Nat} (f : (⟨1, ![n]⟩ : Shape).Idx → EReal) : ∑ i, f i = ∑ a : Fin n, f (ix1 a) := by
  refine Fintype.sum_equiv ⟨fun i => i 0, fun a => ix1 a, fun i => (ValueIdx.eq_ix1 i).symm, fun _ => rfl⟩ _ _ (fun i => ?_)
  exact congrArg f (ValueIdx.eq_ix1 i)

/-- The node count of graph g is the sum over all nodes of the indicator of the node's graph id. -/
theorem count_apply (g : Fin 64) :
    val_main_v108 (F := Ideal) x2 (ix1 g) = ∑ n : Fin 50000, Cert.Spec.onehot (x2 (ix1 n)) g := by
  unfold val_main_v108 Host.scatterAdd
  rw [Ideal.hostScatterAdd_def]
  unfold Ideal.hostScatterAdd
  rw [val_main_v106_apply, val_main_cst_24_apply, Ideal.ofBits_def, Ideal.ofBits_zero_f32, zero_add,
    Finset.sum_filter, sum_idx1]
  refine Finset.sum_congr rfl (fun n _ => ?_)
  rw [val_main_v105_apply, val_main_cst_23_apply, Ideal.ofBits_def, Ideal.ofBits_one_f32]
  simp only [cnt_lands]
  rfl

end Cert.ReferenceIdeal.RV

end
-- ==== Proof.Assembly.lean ====
import proofs.«405578_j67937792688660_2_alg».proof.Proof.Args
import proofs.«405578_j67937792688660_2_alg».proof.Proof.KRun
import proofs.«405578_j67937792688660_2_alg».proof.Proof.Region0
import proofs.«405578_j67937792688660_2_alg».proof.Proof.Region1
import proofs.«405578_j67937792688660_2_alg».proof.Proof.Region2
import proofs.«405578_j67937792688660_2_alg».proof.Proof.Region3
import proofs.«405578_j67937792688660_2_alg».proof.Proof.HostA
import proofs.«405578_j67937792688660_2_alg».proof.Proof.HostB
import proofs.«405578_j67937792688660_2_alg».proof.Proof.RefRead
import proofs.«405578_j67937792688660_2_alg».proof.Proof.RefScatter

set_option maxRecDepth 16384

noncomputable section

namespace Cert.KernelIdeal.KV

open Idealize.ShloMosaic Idealize.ShloMosaic.TcCoe Idealize.SL.Sem
open Idealize.ShloMosaic.Pipeline (Dat)
open Idealize.ShloMosaic.ValueIdx (ix1 ix2)
open Cert.KernelIdeal Cert.KernelIdeal.Gen
open Idealize.ShloMosaic.ValueIdx (eq_ix2)
variable (m : (ℓ : Loc nD τ sig) → Buf (Elt Ideal) ℓ) (ρ : Dev nD → PrngReg)

/-- After region 0 the first layer's product is the reference's. -/
theorem h1_val (c : Dev nD) :
    (dat0 (F := Ideal) (V1 m ρ) c).arrAt 2 cfg0.N = Cert.ReferenceIdeal.Read.val_main_v4 (F := Ideal) (A0 m c) (A3 m c) := by
  rw [region0 (V1 m ρ) c, V1_arg0 m ρ c, V1_arg3 m ρ c]

/-- After region 1 the second layer's product is the reference's: entry by entry both are the sum over the hidden
    axis of the combined, rectified first-layer features times the weights. -/
theorem h2_val (c : Dev nD) :
    (dat1 (F := Ideal) (V3 m ρ) c).arrAt 5 cfg1.N = Cert.ReferenceIdeal.Read.val_main_v53 (F := Ideal) (A0 m c) (A1 m c) (A3 m c) (A4 m c) (A5 m c) := by
  funext i
  obtain ⟨p, q, rfl⟩ : ∃ (p : Fin 50000) (q : Fin 128), i = ix2 p q := ⟨i 0, i 1, eq_ix2 i⟩
  have h := region1 (V3 m ρ) c p q
  simp only [V3_v46 m ρ c (h1_val m ρ c), V3_v32 m ρ c, h1_val m ρ c, V3_v28 m ρ c, V3_v29 m ρ c, V3_arg5 m ρ c] at h
  exact h.trans (Cert.ReferenceIdeal.RV.h2_apply (A0 m c) (A1 m c) (A3 m c) (A4 m c) (A5 m c) p q).symm

/-- After region 2 the pooled sums are the reference's segment sums. -/
theorem pooled_val (c : Dev nD) (g : Fin 64) (d : Fin 128) :
    ((dat2 (F := Ideal) (V5 m ρ) c).arrAt 5 cfg2.N : S64x128.Idx → EReal) (ix2 g d)
      = Cert.ReferenceIdeal.Read.val_main_v104 (F := Ideal) (A0 m c) (A1 m c) (A2 m c) (A3 m c) (A4 m c) (A5 m c) (A6 m c) (ix2 g d) := by
  have h := region2_pooled (V5 m ρ) c g d
  simp only [V5_v4 m ρ c, V5_v61 m ρ c (h2_val m ρ c), V5_v47 m ρ c, h2_val m ρ c, V5_v28 m ρ c, V5_v30 m ρ c] at h
  refine h.trans (Eq.trans ?_ (Cert.ReferenceIdeal.RV.pooled_apply (A0 m c) (A1 m c) (A2 m c) (A3 m c) (A4 m c) (A5 m c) (A6 m c) g d).symm)
  simp only [Cert.ReferenceIdeal.RV.act2_apply]

/-- After region 2 the counts are the reference's. -/
theorem count_val (c : Dev nD) (g : Fin 64) :
    ((dat2 (F := Ideal) (V5 m ρ) c).arrAt 6 cfg2.N : S64x1.Idx → EReal) (ix2 g 0)
      = Cert.ReferenceIdeal.Read.val_main_v108 (F := Ideal) (A2 m c) (ix1 g) := by
  have h := region2_count (V5 m ρ) c g
  simp only [V5_v4 m ρ c] at h
  exact h.trans (Cert.ReferenceIdeal.RV.count_apply (A2 m c) g).symm

/-- The kernel's result buffer ends at the reference's function of the argument arrays. -/
theorem kernel_value (c : Dev nD) :
    W7 m ρ c (Proc.devRef .tc main_v63)
      = Cert.ReferenceIdeal.Read.val_main_v117 (F := Ideal) (A0 m c) (A1 m c) (A2 m c) (A3 m c) (A4 m c) (A5 m c) (A6 m c) (A7 m c) (A8 m c) := by
  rw [W7_v63 m ρ c]
  funext i
  obtain ⟨g, j, rfl⟩ : ∃ (g : Fin 64) (j : Fin 16), i = ix2 g j := ⟨i 0, i 1, eq_ix2 i⟩
  have h := region3 (V6 m ρ) c g j
  simp only [V6_v31 m ρ c, V6_v62_0 m ρ c, V6_v62_1 m ρ c, pooled_val m ρ c, count_val m ρ c, V6_arg7 m ρ c] at h
  exact h.trans (Cert.ReferenceIdeal.RV.out_apply (A0 m c) (A1 m c) (A2 m c) (A3 m c) (A4 m c) (A5 m c) (A6 m c) (A7 m c) (A8 m c) g j).symm

end Cert.KernelIdeal.KV

end
-- ==== Proof.lean ====
/- The proof of `Cert.Claim`: a two-layer graph convolution, mean pooling by graph id and a final linear layer, computed
   by four TensorCore kernels among host gathers and scatter-adds, against the same network written in plain array
   operations. At the ideal instance (floats are extended reals, a change of float format is the identity) the kernel
   program's result is shown to be the reference's own function of the argument arrays, stage by stage:
   the tiled dense products are the reference's contractions entry by entry; the host gather / scale / scatter-add
   between the kernels are the reference's own operations applied to equal operands; the fused combine-and-rectify
   bodies compute the reference's pointwise chain; the one-hot matrix product accumulated over the 25 row tiles is the
   reference's segment sum (an id outside [0, 64) matches no column and lands nowhere); the mean and the last layer
   read the same on both sides. No law used needs finiteness: only commutativity and associativity of the sums, and
   0 · x = 0, 1 · x = x. The three frames are the generated ones; the ledger of the ideal pass is empty. -/
import proofs.«405578_j67937792688660_2_alg».proof.Defs
import proofs.«405578_j67937792688660_2_alg».proof.Proof.Gen.Kernel
import proofs.«405578_j67937792688660_2_alg».proof.Proof.Gen.Kernel.Skeleton
import proofs.«405578_j67937792688660_2_alg».proof.Proof.Gen.Kernel.Launch
import proofs.«405578_j67937792688660_2_alg».proof.Proof.Gen.Kernel.Points
import proofs.«405578_j67937792688660_2_alg».proof.Proof.Gen.Kernel.Frame
import proofs.«405578_j67937792688660_2_alg».proof.Proof.Gen.KernelIdeal
import proofs.«405578_j67937792688660_2_alg».proof.Proof.Gen.KernelIdeal.Skeleton
import proofs.«405578_j67937792688660_2_alg».proof.Proof.Gen.KernelIdeal.Launch
import proofs.«405578_j67937792688660_2_alg».proof.Proof.Gen.KernelIdeal.Points
import proofs.«405578_j67937792688660_2_alg».proof.Proof.Gen.KernelIdeal.Frame
import proofs.«405578_j67937792688660_2_alg».proof.Proof.Gen.ReferenceIdeal
import proofs.«405578_j67937792688660_2_alg».proof.Proof.Gen.ReferenceIdeal.Run
import proofs.«405578_j67937792688660_2_alg».proof.Proof.Gen.ReferenceIdeal.Read
import proofs.«405578_j67937792688660_2_alg».proof.Proof.Gen.Pre_finite_inputs
import proofs.«405578_j67937792688660_2_alg».proof.Proof.Assembly
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the result buffer at the reference's function of the (agreeing) argument arrays. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.ReferenceIdeal.Read.val_main_v117 (F := Ideal) (Cert.KernelIdeal.KV.A0 m c) (Cert.KernelIdeal.KV.A1 m c) (Cert.KernelIdeal.KV.A2 m c)
      (Cert.KernelIdeal.KV.A3 m c) (Cert.KernelIdeal.KV.A4 m c) (Cert.KernelIdeal.KV.A5 m c) (Cert.KernelIdeal.KV.A6 m c) (Cert.KernelIdeal.KV.A7 m c) (Cert.KernelIdeal.KV.A8 m c), ?_, ?_⟩
  · exact (θ_run Cert.KernelIdeal.defs _ _).mono (fun _ h c => ⟨(h c).1.trans (Cert.KernelIdeal.KV.kernel_value m ρ c), (h c).2⟩)
      (Cert.KernelIdeal.KRun.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v117_eq, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
